-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v66) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x40 : Shape := ⟨2, ![96, 40]⟩
abbrev S40 : Shape := ⟨1, ![40]⟩
abbrev S96x64 : Shape := ⟨2, ![96, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S40 .f32) (main_arg6 : FVec F S96x64 .f32) (main_arg7 : FVec F S64 .f32) (main_arg8 : FVec F S64x1 .f32) (main_arg9 : FVec F S1 .f32) (main_v13 : IVec S_ 1) (main_v16 : IVec S96x40 1) : IVec S_ 1 :=
  let main_c_5 : IVec S_ 1 := constantI S_ 1 1#1
  let main_v17 : IVec S_ 1 := (fun x v => Host.reduce IntOp.andi x v reducesTo_S96x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S96x64 .f32 := Host.absf main_arg6
  let main_cst_8 : FVec F S_ .f32 := constant S_ .f32 0x7F800000#32
  let main_v25 : FVec F S96x64 .f32 := broadcastInDim S96x64 ![] bcast_S_S96x64 main_cst_8
  let main_v26 : IVec S96x64 1 := cmpf .olt main_v24 main_v25
  let main_c_9 : IVec S_ 1 := constantI S_ 1 1#1
  let main_v27 : IVec S_ 1 := (fun x v => Host.reduce IntOp.andi x v reducesTo_S96x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x96 .f32) (main_arg3 : FVec F S96 .f32) (main_arg4 : FVec F S96x40 .f32) (main_arg5 : FVec F S40 .f32) (main_arg6 : FVec F S96x64 .f32) (main_arg7 : FVec F S64 .f32) (main_arg8 : FVec F S64x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x40 .f32 := Host.absf main_arg4
  let main_cst_4 : FVec F S_ .f32 := constant S_ .f32 0x7F800000#32
  let main_v15 : FVec F S96x40 .f32 := broadcastInDim S96x40 ![] bcast_S_S96x40 main_cst_4
  let main_v16 : IVec S96x40 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x40 : Shape := ⟨2, ![96, 40]⟩
abbrev S40 : Shape := ⟨1, ![40]⟩
abbrev S96x64 : Shape := ⟨2, ![96, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S10000x128 : Shape := ⟨2, ![10000, 128]⟩
abbrev S10000x96 : Shape := ⟨2, ![10000, 96]⟩
abbrev S850000x96 : Shape := ⟨2, ![850000, 96]⟩
abbrev S1x96 : Shape := ⟨2, ![1, 96]⟩
abbrev S1x64 : Shape := ⟨2, ![1, 64]⟩
abbrev S1x1 : Shape := ⟨2, ![1, 1]⟩
abbrev S50000x40 : Shape := ⟨2, ![50000, 40]⟩
abbrev S50000x1 : Shape := ⟨2, ![50000, 1]⟩
abbrev S10000x40 : Shape := ⟨2, ![10000, 40]⟩
abbrev S10000x1 : Shape := ⟨2, ![10000, 1]⟩
abbrev S10000x64 : Shape := ⟨2, ![10000, 64]⟩
abbrev S850000x40 : Shape := ⟨2, ![850000, 40]⟩
abbrev S1x40 : Shape := ⟨2, ![1, 40]⟩
abbrev S10000 : Shape := ⟨1, ![10000]⟩

abbrev nBuf : Space → Nat
  | .hbm => 95
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x96, .f32⟩
  | .hbm, ⟨3, _⟩ => ⟨S96, .f32⟩
  | .hbm, ⟨4, _⟩ => ⟨S96x40, .f32⟩
  | .hbm, ⟨5, _⟩ => ⟨S40, .f32⟩
  | .hbm, ⟨6, _⟩ => ⟨S96x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x96, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x96, .f32⟩
  | .hbm, ⟨60, _⟩ => ⟨S850000x1, .f32⟩
  | .hbm, ⟨61, _⟩ => ⟨S850000x96, .f32⟩
  | .hbm, ⟨62, _⟩ => ⟨S850000x96, .f32⟩
  | .hbm, ⟨63, _⟩ => ⟨S_, .f32⟩
  | .hbm, ⟨64, _⟩ => ⟨S50000x96, .f32⟩
  | .hbm, ⟨65, _⟩ => ⟨S850000x1, .i32⟩
  | .hbm, ⟨66, _⟩ => ⟨S50000x96, .f32⟩
  | .hbm, ⟨67, _⟩ => ⟨S1x96, .f32⟩
  | .hbm, ⟨68, _⟩ => ⟨S1x64, .f32⟩
  | .hbm, ⟨69, _⟩ => ⟨S1x1, .f32⟩
  | .hbm, ⟨70, _⟩ => ⟨S50000x40, .f32⟩
  | .hbm, ⟨71, _⟩ => ⟨S50000x1, .f32⟩
  | .hbm, ⟨72, _⟩ => ⟨S50000x1, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x40, .f32⟩
  | .hbm, ⟨82, _⟩ => ⟨S850000x1, .f32⟩
  | .hbm, ⟨83, _⟩ => ⟨S850000x40, .f32⟩
  | .hbm, ⟨84, _⟩ => ⟨S850000x40, .f32⟩
  | .hbm, ⟨85, _⟩ => ⟨S_, .f32⟩
  | .hbm, ⟨86, _⟩ => ⟨S50000x40, .f32⟩
  | .hbm, ⟨87, _⟩ => ⟨S850000x1, .i32⟩
  | .hbm, ⟨88, _⟩ => ⟨S50000x40, .f32⟩
  | .hbm, ⟨89, _⟩ => ⟨S1x40, .f32⟩
  | .hbm, ⟨90, _⟩ => ⟨S50000x40, .f32⟩
  | .hbm, ⟨91, _⟩ => ⟨S50000x40, .f32⟩
  | .hbm, ⟨92, _⟩ => ⟨S50000x40, .f32⟩
  | .hbm, ⟨93, _⟩ => ⟨S50000, .f32⟩
  | .hbm, ⟨94, _⟩ => ⟨S50000, .f32⟩
  | .local _ .vmem, ⟨0, _⟩ => ⟨S10000x128, .f32⟩
  | .local _ .vmem, ⟨1, _⟩ => ⟨S10000x128, .f32⟩
  | .local _ .vmem, ⟨2, _⟩ => ⟨S128x96, .f32⟩
  | .local _ .vmem, ⟨3, _⟩ => ⟨S10000x96, .f32⟩
  | .local _ .vmem, ⟨4, _⟩ => ⟨S10000x96, .f32⟩
  | .local _ .vmem, ⟨5, _⟩ => ⟨S10000x96, .f32⟩
  | .local _ .vmem, ⟨6, _⟩ => ⟨S10000x96, .f32⟩
  | .local _ .vmem, ⟨7, _⟩ => ⟨S1x96, .f32⟩
  | .local _ .vmem, ⟨8, _⟩ => ⟨S96x40, .f32⟩
  | .local _ .vmem, ⟨9, _⟩ => ⟨S96x64, .f32⟩
  | .local _ .vmem, ⟨10, _⟩ => ⟨S1x64, .f32⟩
  | .local _ .vmem, ⟨11, _⟩ => ⟨S64x1, .f32⟩
  | .local _ .vmem, ⟨12, _⟩ => ⟨S1x1, .f32⟩
  | .local _ .vmem, ⟨13, _⟩ => ⟨S10000x40, .f32⟩
  | .local _ .vmem, ⟨14, _⟩ => ⟨S10000x40, .f32⟩
  | .local _ .vmem, ⟨15, _⟩ => ⟨S10000x1, .f32⟩
  | .local _ .vmem, ⟨16, _⟩ => ⟨S10000x1, .f32⟩
  | .local _ .vmem, ⟨17, _⟩ => ⟨S10000x1, .f32⟩
  | .local _ .vmem, ⟨18, _⟩ => ⟨S10000x1, .f32⟩
  | .local _ .vmem, ⟨19, _⟩ => ⟨S10000x40, .f32⟩
  | .local _ .vmem, ⟨20, _⟩ => ⟨S10000x40, .f32⟩
  | .local _ .vmem, ⟨21, _⟩ => ⟨S10000x40, .f32⟩
  | .local _ .vmem, ⟨22, _⟩ => ⟨S10000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47_0 : Ref sig .tc := ⟨.hbm, 70, rfl⟩
abbrev main_v47_1 : Ref sig .tc := ⟨.hbm, 71, rfl⟩
abbrev main_v47_2 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc1_sem8_0 : DmaSem sig := 15
abbrev cc1_sem8_1 : DmaSem sig := 16
abbrev cc1_sem9_0 : DmaSem sig := 17
abbrev cc1_sem9_1 : DmaSem sig := 18
abbrev cc2_sem0_0 : DmaSem sig := 19
abbrev cc2_sem0_1 : DmaSem sig := 20
abbrev cc2_sem1_0 : DmaSem sig := 21
abbrev cc2_sem1_1 : DmaSem sig := 22

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x40 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S10000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S10000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S10000x96_S10000x96_0_0 : ∀ a, (![0, 0] : Fin 2 → Nat) a + S10000x96.size a ≤ S10000x96.size a
  h_S10000x96 : 0 < S10000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S96_S1x96 : S96.ShapeCasts S1x96
  shapeCasts_S64_S1x64 : S64.ShapeCasts S1x64
  shapeCasts_S1_S1x1 : S1.ShapeCasts S1x1
  shapeCasts_S10000x96_S10000x96 : S10000x96.ShapeCasts S10000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S10000x96 : S1x96.Broadcasts S10000x96
  inb_S96x40_S96x40_0_0 : ∀ a, (![0, 0] : Fin 2 → Nat) a + S96x40.size a ≤ S96x40.size a
  h_S96x40 : 0 < S96x40.numel
  inb_S96x64_S96x64_0_0 : ∀ a, (![0, 0] : Fin 2 → Nat) a + S96x64.size a ≤ S96x64.size a
  h_S96x64 : 0 < S96x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  natLt_1_32 : 1 < 32
  inb_S10000x40_S10000x40_0_0 : ∀ a, (![0, 0] : Fin 2 → Nat) a + S10000x40.size a ≤ S10000x40.size a
  h_S10000x40 : 0 < S10000x40.numel
  inb_S10000x1_S10000x1_0_0 : ∀ a, (![0, 0] : Fin 2 → Nat) a + S10000x1.size a ≤ S10000x1.size a
  h_S10000x1 : 0 < S10000x1.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  shapeCasts_S10000x40_S10000x40 : S10000x40.ShapeCasts S10000x40
  reduces_S10000x40_S10000 : S10000x40.Reduces [1] S10000
  shapeCasts_S10000_S10000x1 : S10000.ShapeCasts S10000x1
  broadcasts_S10000x1_S10000x40 : S10000x1.Broadcasts S10000x40
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x96_S10000x96_1_0_0_1_n_n_wf : DotDims.WF S10000x128 S128x96 S10000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S10000x96_S96x40_S10000x40_1_0_0_1_n_n_wf : DotDims.WF S10000x96 S96x40 S10000x40 [1] [0] [0] [1] [] []
  dot_S10000x96_S96x64_S10000x64_1_0_0_1_n_n_wf : DotDims.WF S10000x96 S96x64 S10000x64 [1] [0] [0] [1] [] []
  dot_S10000x64_S64x1_S10000x1_1_0_0_1_n_n_wf : DotDims.WF S10000x64 S64x1 S10000x1 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x96.size a ≤ S50000x96.size a
  hwx0_2 : ∀ i : grid0.Coords, EltTy.bits .f32 = 32 ∨ (Rect.block (s := S50000x96) S10000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x96.size a ≤ S50000x96.size a
  hwx1_0 : ∀ i : grid1.Coords, EltTy.bits .f32 = 32 ∨ (Rect.block (s := S50000x96) S10000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x40.size a ≤ S96x40.size a
  hwx1_2 : ∀ i : grid1.Coords, EltTy.bits .f32 = 32 ∨ (Rect.block (s := S96x40) S96x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x64.size a ≤ S96x64.size a
  hwx1_3 : ∀ i : grid1.Coords, EltTy.bits .f32 = 32 ∨ (Rect.block (s := S96x64) S96x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x40.size a ≤ S50000x40.size a
  hwx1_7 : ∀ i : grid1.Coords, EltTy.bits .f32 = 32 ∨ (Rect.block (s := S50000x40) S10000x40.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x1.size a ≤ S50000x1.size a
  hwx1_8 : ∀ i : grid1.Coords, EltTy.bits .f32 = 32 ∨ (Rect.block (s := S50000x1) S10000x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x1.size a ≤ S50000x1.size a
  hwx1_9 : ∀ i : grid1.Coords, EltTy.bits .f32 = 32 ∨ (Rect.block (s := S50000x1) S10000x1.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S50000x40.size a
  hwx2_0 : ∀ i : grid2.Coords, EltTy.bits .f32 = 32 ∨ (Rect.block (s := S50000x40) S10000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x40.size a ≤ S50000x40.size a
  hwx2_1 : ∀ i : grid2.Coords, EltTy.bits .f32 = 32 ∨ (Rect.block (s := S50000x40) S10000x40.size (cc2_transform_1 i) (hinb2_1 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x96_S10000x96_1_0_0_1_n_n : DotDims S10000x128 S128x96 S10000x96 where
  lhsContracting := [1]
  rhsContracting := [0]
  lhsNonContracting := [0]
  rhsNonContracting := [1]
  lhsBatch := []
  rhsBatch := []
  wf := dot_S10000x128_S128x96_S10000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S10000x96_S96x40_S10000x40_1_0_0_1_n_n : DotDims S10000x96 S96x40 S10000x40 where
  lhsContracting := [1]
  rhsContracting := [0]
  lhsNonContracting := [0]
  rhsNonContracting := [1]
  lhsBatch := []
  rhsBatch := []
  wf := dot_S10000x96_S96x40_S10000x40_1_0_0_1_n_n_wf
def dot_S10000x96_S96x64_S10000x64_1_0_0_1_n_n : DotDims S10000x96 S96x64 S10000x64 where
  lhsContracting := [1]
  rhsContracting := [0]
  lhsNonContracting := [0]
  rhsNonContracting := [1]
  lhsBatch := []
  rhsBatch := []
  wf := dot_S10000x96_S96x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S96x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S96x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47_0) S10000x40.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v47_1) S10000x1.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v47_2) S10000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v63) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S10000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x40 : Shape := ⟨2, ![96, 40]⟩
abbrev S40 : Shape := ⟨1, ![40]⟩
abbrev S96x64 : Shape := ⟨2, ![96, 64]⟩
abbrev S64 : Shape := ⟨1, ![64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S850000x96 : Shape := ⟨2, ![850000, 96]⟩
abbrev S1x96 : Shape := ⟨2, ![1, 96]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩
abbrev S50000x64 : Shape := ⟨2, ![50000, 64]⟩
abbrev S1x64 : Shape := ⟨2, ![1, 64]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S2x800000, .i32⟩
  | 2 => ⟨S128x96, .f32⟩
  | 3 => ⟨S96, .f32⟩
  | 4 => ⟨S96x40, .f32⟩
  | 5 => ⟨S40, .f32⟩
  | 6 => ⟨S96x64, .f32⟩
  | 7 => ⟨S64, .f32⟩
  | 8 => ⟨S64x1, .f32⟩
  | 9 => ⟨S1, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x96, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x96, .f32⟩
  | 60 => ⟨S850000x1, .f32⟩
  | 61 => ⟨S850000x96, .f32⟩
  | 62 => ⟨S850000x96, .f32⟩
  | 63 => ⟨S_, .f32⟩
  | 64 => ⟨S50000x96, .f32⟩
  | 65 => ⟨S850000x1, .i32⟩
  | 66 => ⟨S50000x96, .f32⟩
  | 67 => ⟨S1x96, .f32⟩
  | 68 => ⟨S50000x96, .f32⟩
  | 69 => ⟨S50000x96, .f32⟩
  | 70 => ⟨S_, .f32⟩
  | 71 => ⟨S50000x96, .f32⟩
  | 72 => ⟨S50000x96, .f32⟩
  | 73 => ⟨S50000x40, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x40, .f32⟩
  | 83 => ⟨S850000x1, .f32⟩
  | 84 => ⟨S850000x40, .f32⟩
  | 85 => ⟨S850000x40, .f32⟩
  | 86 => ⟨S_, .f32⟩
  | 87 => ⟨S50000x40, .f32⟩
  | 88 => ⟨S850000x1, .i32⟩
  | 89 => ⟨S50000x40, .f32⟩
  | 90 => ⟨S1x40, .f32⟩
  | 91 => ⟨S50000x40, .f32⟩
  | 92 => ⟨S50000x40, .f32⟩
  | 93 => ⟨S_, .f32⟩
  | 94 => ⟨S50000, .f32⟩
  | 95 => ⟨S_, .f32⟩
  | 96 => ⟨S50000, .f32⟩
  | 97 => ⟨S50000, .f32⟩
  | 98 => ⟨S50000x1, .f32⟩
  | 99 => ⟨S50000x40, .f32⟩
  | 100 => ⟨S50000x40, .f32⟩
  | 101 => ⟨S50000x40, .f32⟩
  | 102 => ⟨S_, .f32⟩
  | 103 => ⟨S50000, .f32⟩
  | 104 => ⟨S50000x1, .f32⟩
  | 105 => ⟨S50000x1, .f32⟩
  | 106 => ⟨S50000x40, .f32⟩
  | 107 => ⟨S50000x40, .f32⟩
  | 108 => ⟨S50000x64, .f32⟩
  | 109 => ⟨S1x64, .f32⟩
  | 110 => ⟨S50000x64, .f32⟩
  | 111 => ⟨S50000x64, .f32⟩
  | 112 => ⟨S_, .f32⟩
  | 113 => ⟨S50000x64, .f32⟩
  | 114 => ⟨S50000x64, .f32⟩
  | 115 => ⟨S50000x1, .f32⟩
  | 116 => ⟨S1x1, .f32⟩
  | 117 => ⟨S50000x1, .f32⟩
  | 118 => ⟨S50000x1, .f32⟩
  | 119 => ⟨S50000, .f32⟩
  | 120 => ⟨S50000, .f32⟩
  | 121 => ⟨S50000, .f32⟩
  | 122 => ⟨S_, .f32⟩
  | 123 => ⟨S50000, .f32⟩
  | 124 => ⟨S50000, .f32⟩
  | 125 => ⟨S_, .f32⟩
  | 126 => ⟨S50000, .f32⟩
  | 127 => ⟨S50000, .f32⟩
  | _ => ⟨S50000x128, .f32⟩

abbrev hbmTy0_1 (i : Nat) : BufTy := match i % 128 with
  | 0 => ⟨S_, .f32⟩
  | 1 => ⟨S50000, .f32⟩
  | 2 => ⟨S50000, .i1⟩
  | 3 => ⟨S50000, .f32⟩
  | 4 => ⟨S50000, .f32⟩
  | 5 => ⟨S50000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_call2_cst_0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_cst_1 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_call3_cst : Ref sig .tc := ⟨.hbm, 112, rfl⟩
abbrev main_call3_v0 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_12 : Ref sig .tc := ⟨.hbm, 122, rfl⟩
abbrev main_v78 : Ref sig .tc := ⟨.hbm, 123, rfl⟩
abbrev main_v79 : Ref sig .tc := ⟨.hbm, 124, rfl⟩
abbrev main_cst_13 : Ref sig .tc := ⟨.hbm, 125, rfl⟩
abbrev main_v80 : Ref sig .tc := ⟨.hbm, 126, rfl⟩
abbrev main_v81 : Ref sig .tc := ⟨.hbm, 127, rfl⟩
abbrev main_cst_14 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x96_S50000x96_1_0_0_1_n_n_wf : DotDims.WF S50000x128 S128x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x40_S50000x40_1_0_0_1_n_n_wf : DotDims.WF S50000x96 S96x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  dot_S50000x96_S96x64_S50000x64_1_0_0_1_n_n_wf : DotDims.WF S50000x96 S96x64 S50000x64 [1] [0] [0] [1] [] []
  dot_S50000x64_S64x1_S50000x1_1_0_0_1_n_n_wf : DotDims.WF S50000x64 S64x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.Spec.lean ====
/-
  The computation in named pieces, as whole-array functions, in the arrangement of the plain array program.

  A graph of 50000 nodes carries 800000 directed edges (rows 0 and 1 of the edge array: sources and targets) and a
  self-loop at every node, 850000 edges in all. deg counts the edges into a node; dinv is deg^(-1/2) where deg > 0 and 0
  elsewhere; an edge's weight is dinv(source) * dinv(target). A graph convolution of a feature array h sends node v to the
  sum, over the edges into v, of weight * h(source) (aggr96 / aggr40: gather the source rows, scale, scatter-add at the
  targets). The network:  lin = x W1;  hid = max(aggr96 lin + b1, 0);  z = aggr40 (hid W2) + b2;  the first result is
  logSoftmax z, row by row;  the second is prob = 1 / (1 + exp(-s)) with s = max(hid Wm1 + bm1, 0) Wm2 + bm2 read as a
  vector;  the third is prob + ([prob > 1/2] - prob).
-/
import proofs.«153174_j81338090651993_1_alg».proof.Proof.Gen.ReferenceIdeal

noncomputable section

namespace Cert.Spec

open Idealize.ShloMosaic Cert.ReferenceIdeal Cert.ReferenceIdeal.Gen

variable {F : FTy → Type} [FloatOps F]

/-- Edge targets: row 1 of the edge array, then every node once. -/
def dstIdx (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- Edge sources: row 0 of the edge array, then every node once. -/
def srcIdx (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- A negative index counts from the end: i < 0 becomes i + 50000. -/
def wrapIdx (i : (⟨S850000, .i32⟩ : BufTy).Contents (Elt F)) : (⟨S850000, .i32⟩ : BufTy).Contents (Elt F) :=
  select (cmpi .slt i (broadcastInDim S850000 ![] bcast_S_S850000 (constantI S_ 32 0#32))) (addi i (broadcastInDim S850000 ![] bcast_S_S850000 (constantI S_ 32 50000#32))) i

/-- The index vector as the one-column index array gather and scatter take. -/
def colIdx (i : (⟨S850000, .i32⟩ : BufTy).Contents (Elt F)) : (⟨S850000x1, .i32⟩ : BufTy).Contents (Elt F) :=
  broadcastInDim S850000x1 ![0] bcast_S850000_S850000x1_0 i

/-- Number of edges into each node. -/
def deg (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (colIdx (dstIdx e)) (broadcastInDim S850000 ![] bcast_S_S850000 (constant S_ .f32 0x3F800000#32))

/-- deg^(-1/2) where deg > 0, else 0. -/
def dinv (e : (⟨S2x800000, .i32⟩ : BufTy).Contents (Elt F)) : (⟨S50000, .f32⟩ : BufTy).Contents (Elt F) :=
  select (cmpf (F := F) .ogt (deg e) (broadcastInDim S50000 ![] bcast_S_S50000 (constant S_ .f32 0x00000000#32))) (Host.rsqrt (deg e)) (broadcastInDim S50000 ![] bcast_S_S50000 (id (constant S_ .f32 0x00000000#32)))

/-- Edge weights dinv(source) * dinv(target). -/
def norm (e : (⟨S2x800000, .i32⟩ : BufTy).Contents (Elt F)) : (⟨S850000, .f32⟩ : BufTy).Contents (Elt F) :=
  mulf (Host.gather gather_S50000_S850000x1_S850000_n_0_n_n_0_1_1 (dinv e) (colIdx (wrapIdx (srcIdx e)))) (Host.gather gather_S50000_S850000x1_S850000_n_0_n_n_0_1_1 (dinv e) (colIdx (wrapIdx (dstIdx e))))

/-- Weighted neighbour sum of a 96-column feature array. -/
def aggr96 (h : (⟨S50000x96, .f32⟩ : BufTy).Contents (Elt F)) (e : (⟨S2x800000, .i32⟩ : BufTy).Contents (Elt F)) : (⟨S50000x96, .f32⟩ : BufTy).Contents (Elt F) :=
  Host.scatterAdd scatter_S50000x96_S850000x1_S850000x96_1_0_0_1 (broadcastInDim S50000x96 ![] bcast_S_S50000x96 (constant S_ .f32 0x00000000#32)) (colIdx (dstIdx e)) (mulf (Host.gather gather_S50000x96_S850000x1_S850000x96_1_0_n_n_0_1_196 h (colIdx (wrapIdx (srcIdx e)))) (broadcastInDim S850000x96 ![0, 1] bcast_S850000x1_S850000x96_0_1 (broadcastInDim S850000x1 ![0] bcast_S850000_S850000x1_0 (norm e))))

/-- Weighted neighbour sum of a 40-column feature array. -/
def aggr40 (h : (⟨S50000x40, .f32⟩ : BufTy).Contents (Elt F)) (e : (⟨S2x800000, .i32⟩ : BufTy).Contents (Elt F)) : (⟨S50000x40, .f32⟩ : BufTy).Contents (Elt F) :=
  Host.scatterAdd scatter_S50000x40_S850000x1_S850000x40_1_0_0_1 (broadcastInDim S50000x40 ![] bcast_S_S50000x40 (constant S_ .f32 0x00000000#32)) (colIdx (dstIdx e)) (mulf (Host.gather gather_S50000x40_S850000x1_S850000x40_1_0_n_n_0_1_140 h (colIdx (wrapIdx (srcIdx e)))) (broadcastInDim S850000x40 ![0, 1] bcast_S850000x1_S850000x40_0_1 (broadcastInDim S850000x1 ![0] bcast_S850000_S850000x1_0 (norm e))))

/-- x W1. -/
def lin (x : (⟨S50000x128, .f32⟩ : BufTy).Contents (Elt F)) (w1 : (⟨S128x96, .f32⟩ : BufTy).Contents (Elt F)) : (⟨S50000x96, .f32⟩ : BufTy).Contents (Elt F) :=
  Host.dotGeneral dot_S50000x128_S128x96_S50000x96_1_0_0_1_n_n none x w1

/-- A 96-vector as a 1 x 96 row. -/
def row96 (b : (⟨S96, .f32⟩ : BufTy).Contents (Elt F)) : (⟨S1x96, .f32⟩ : BufTy).Contents (Elt F) := broadcastInDim S1x96 ![1] bcast_S96_S1x96_1 b
def row64 (b : (⟨S64, .f32⟩ : BufTy).Contents (Elt F)) : (⟨S1x64, .f32⟩ : BufTy).Contents (Elt F) := broadcastInDim S1x64 ![1] bcast_S64_S1x64_1 b
def row1 (b : (⟨S1, .f32⟩ : BufTy).Contents (Elt F)) : (⟨S1x1, .f32⟩ : BufTy).Contents (Elt F) := broadcastInDim S1x1 ![1] bcast_S1_S1x1_1 b

/-- max(a + bias row, 0), the hidden features, from the aggregated features and the bias as a row. -/
def hidden (a : (⟨S50000x96, .f32⟩ : BufTy).Contents (Elt F)) (b1row : (⟨S1x96, .f32⟩ : BufTy).Contents (Elt F)) : (⟨S50000x96, .f32⟩ : BufTy).Contents (Elt F) :=
  maximumf (addf a (broadcastInDim S50000x96 ![0, 1] bcast_S1x96_S50000x96_0_1 b1row)) (broadcastInDim S50000x96 ![] bcast_S_S50000x96 (constant S_ .f32 0x00000000#32))

/-- hid W2. -/
def proj40 (h : (⟨S50000x96, .f32⟩ : BufTy).Contents (Elt F)) (w2 : (⟨S96x40, .f32⟩ : BufTy).Contents (Elt F)) : (⟨S50000x40, .f32⟩ : BufTy).Contents (Elt F) :=
  Host.dotGeneral dot_S50000x96_S96x40_S50000x40_1_0_0_1_n_n none h w2

/-- a + b2, the bias broadcast down the rows. -/
def addBias40 (a : (⟨S50000x40, .f32⟩ : BufTy).Contents (Elt F)) (b2 : (⟨S40, .f32⟩ : BufTy).Contents (Elt F)) : (⟨S50000x40, .f32⟩ : BufTy).Contents (Elt F) :=
  addf a (broadcastInDim S50000x40 ![0, 1] bcast_S1x40_S50000x40_0_1 (broadcastInDim S1x40 ![1] bcast_S40_S1x40_1 b2))

/-- Row maximum, kept as a column and spread back along the row. -/
def rowMax (z : (⟨S50000x40, .f32⟩ : BufTy).Contents (Elt F)) : (⟨S50000x40, .f32⟩ : BufTy).Contents (Elt F) :=
  broadcastInDim S50000x40 ![0, 1] bcast_S50000x1_S50000x40_0_1 (broadcastInDim S50000x1 ![0] bcast_S50000_S50000x1_0 (maximumf (broadcastInDim S50000 ![] bcast_S_S50000 (constant S_ .f32 0xFF800000#32)) (Host.reduce FloatOps.maximumf z (constant S_ .f32 0xFF800000#32) reducesTo_S50000x40_S50000_d1 h_S_)))

/-- log-softmax along each row: (z - max) - log (sum (exp (z - max))). -/
def logSoftmax (z : (⟨S50000x40, .f32⟩ : BufTy).Contents (Elt F)) : (⟨S50000x40, .f32⟩ : BufTy).Contents (Elt F) :=
  subf (subf z (rowMax z)) (broadcastInDim S50000x40 ![0, 1] bcast_S50000x1_S50000x40_0_1 (Host.log (broadcastInDim S50000x1 ![0] bcast_S50000_S50000x1_0 (Host.reduceAdd (Host.exp (subf z (rowMax z))) (constant S_ .f32 0x00000000#32) reducesTo_S50000x40_S50000_d1 h_S_))))

/-- The score column max(hid Wm1 + bm1, 0) Wm2 + bm2, biases as rows. -/
def scoreCol (h : (⟨S50000x96, .f32⟩ : BufTy).Contents (Elt F)) (wm1 : (⟨S96x64, .f32⟩ : BufTy).Contents (Elt F)) (bm1row : (⟨S1x64, .f32⟩ : BufTy).Contents (Elt F)) (wm2 : (⟨S64x1, .f32⟩ : BufTy).Contents (Elt F)) (bm2row : (⟨S1x1, .f32⟩ : BufTy).Contents (Elt F)) : (⟨S50000x1, .f32⟩ : BufTy).Contents (Elt F) :=
  addf (Host.dotGeneral dot_S50000x64_S64x1_S50000x1_1_0_0_1_n_n none (maximumf (addf (Host.dotGeneral dot_S50000x96_S96x64_S50000x64_1_0_0_1_n_n none h wm1) (broadcastInDim S50000x64 ![0, 1] bcast_S1x64_S50000x64_0_1 bm1row)) (broadcastInDim S50000x64 ![] bcast_S_S50000x64 (constant S_ .f32 0x00000000#32))) wm2) (broadcastInDim S50000x1 ![0, 1] bcast_S1x1_S50000x1_0_1 bm2row)

/-- 1 / (1 + exp(-s)) of the score read as a vector. -/
def probVec (s : (⟨S50000x1, .f32⟩ : BufTy).Contents (Elt F)) : (⟨S50000, .f32⟩ : BufTy).Contents (Elt F) :=
  Host.divf (broadcastInDim S50000 ![] bcast_S_S50000 (constant S_ .f32 0x3F800000#32)) (addf (broadcastInDim S50000 ![] bcast_S_S50000 (constant S_ .f32 0x3F800000#32)) (Host.exp (Host.negf (shapeCast _ s shapeCasts_S50000x1_S50000))))

/-- p + ([p > 1/2] - p). -/
def maskVec (p : (⟨S50000, .f32⟩ : BufTy).Contents (Elt F)) : (⟨S50000, .f32⟩ : BufTy).Contents (Elt F) :=
  addf p (subf (uitofp (F := F) .f32 (cmpf (F := F) .ogt p (broadcastInDim S50000 ![] bcast_S_S50000 (constant S_ .f32 0x3F000000#32)))) p)

/-- The hidden features of the whole network from the inputs. -/
def hid (x : (⟨S50000x128, .f32⟩ : BufTy).Contents (Elt F)) (e : (⟨S2x800000, .i32⟩ : BufTy).Contents (Elt F)) (w1 : (⟨S128x96, .f32⟩ : BufTy).Contents (Elt F)) (b1 : (⟨S96, .f32⟩ : BufTy).Contents (Elt F)) : (⟨S50000x96, .f32⟩ : BufTy).Contents (Elt F) :=
  hidden (aggr96 (lin x w1) e) (row96 b1)

/-- First result. -/
def logits (x : (⟨S50000x128, .f32⟩ : BufTy).Contents (Elt F)) (e : (⟨S2x800000, .i32⟩ : BufTy).Contents (Elt F)) (w1 : (⟨S128x96, .f32⟩ : BufTy).Contents (Elt F)) (b1 : (⟨S96, .f32⟩ : BufTy).Contents (Elt F)) (w2 : (⟨S96x40, .f32⟩ : BufTy).Contents (Elt F)) (b2 : (⟨S40, .f32⟩ : BufTy).Contents (Elt F)) : (⟨S50000x40, .f32⟩ : BufTy).Contents (Elt F) :=
  logSoftmax (addBias40 (aggr40 (proj40 (hid x e w1 b1) w2) e) b2)

/-- Second result. -/
def prob (x : (⟨S50000x128, .f32⟩ : BufTy).Contents (Elt F)) (e : (⟨S2x800000, .i32⟩ : BufTy).Contents (Elt F)) (w1 : (⟨S128x96, .f32⟩ : BufTy).Contents (Elt F)) (b1 : (⟨S96, .f32⟩ : BufTy).Contents (Elt F)) (wm1 : (⟨S96x64, .f32⟩ : BufTy).Contents (Elt F)) (bm1 : (⟨S64, .f32⟩ : BufTy).Contents (Elt F)) (wm2 : (⟨S64x1, .f32⟩ : BufTy).Contents (Elt F)) (bm2 : (⟨S1, .f32⟩ : BufTy).Contents (Elt F)) : (⟨S50000, .f32⟩ : BufTy).Contents (Elt F) :=
  probVec (scoreCol (hid x e w1 b1) wm1 (row64 bm1) wm2 (row1 bm2))

end Cert.Spec

end
-- ==== Proof.HostRead.lean ====
/-
  What each stretch of array operations of the whole program leaves in the buffers the next kernel launch (or the
  results) read, as a function of what the stretch found: the edge sources, targets and weights from the edge array;
  the weighted neighbour sums from the features a launch left; the bias rows as reshaped vectors; the two result
  vectors as the reshaped result columns. Every other buffer a later stretch still needs is kept by the stretches in
  between, and a launch changes only its own operand arrays.
-/
import proofs.«153174_j81338090651993_1_alg».proof.Proof.Gen.KernelIdeal.Frame
import proofs.«153174_j81338090651993_1_alg».proof.Proof.Spec
import Idealize.ShloMosaic.Lib.StableHlo.Run

set_option maxRecDepth 16384
set_option maxHeartbeats 2000000

noncomputable section

/-! ## The neighbour sums with the edge lists and the weights as array arguments -/

namespace Cert.Spec

open Idealize.ShloMosaic Cert.ReferenceIdeal Cert.ReferenceIdeal.Gen

variable {F : FTy → Type} [FloatOps F]

/-- Weighted neighbour sum of 96-column features over given sources, targets and weights. -/
def aggrRows96 (h : (⟨S50000x96, .f32⟩ : BufTy).Contents (Elt F)) (src dst : (⟨S850000, .i32⟩ : BufTy).Contents (Elt F)) (nrm : (⟨S850000, .f32⟩ : BufTy).Contents (Elt F)) : (⟨S50000x96, .f32⟩ : BufTy).Contents (Elt F) :=
  Host.scatterAdd scatter_S50000x96_S850000x1_S850000x96_1_0_0_1 (broadcastInDim S50000x96 ![] bcast_S_S50000x96 (constant S_ .f32 0x00000000#32)) (colIdx dst) (mulf (Host.gather gather_S50000x96_S850000x1_S850000x96_1_0_n_n_0_1_196 h (colIdx (wrapIdx src))) (broadcastInDim S850000x96 ![0, 1] bcast_S850000x1_S850000x96_0_1 (broadcastInDim S850000x1 ![0] bcast_S850000_S850000x1_0 nrm)))

/-- Weighted neighbour sum of 40-column features over given sources, targets and weights. -/
def aggrRows40 (h : (⟨S50000x40, .f32⟩ : BufTy).Contents (Elt F)) (src dst : (⟨S850000, .i32⟩ : BufTy).Contents (Elt F)) (nrm : (⟨S850000, .f32⟩ : BufTy).Contents (Elt F)) : (⟨S50000x40, .f32⟩ : BufTy).Contents (Elt F) :=
  Host.scatterAdd scatter_S50000x40_S850000x1_S850000x40_1_0_0_1 (broadcastInDim S50000x40 ![] bcast_S_S50000x40 (constant S_ .f32 0x00000000#32)) (colIdx dst) (mulf (Host.gather gather_S50000x40_S850000x1_S850000x40_1_0_n_n_0_1_140 h (colIdx (wrapIdx src))) (broadcastInDim S850000x40 ![0, 1] bcast_S850000x1_S850000x40_0_1 (broadcastInDim S850000x1 ![0] bcast_S850000_S850000x1_0 nrm)))

theorem aggr96_eq (h : (⟨S50000x96, .f32⟩ : BufTy).Contents (Elt F)) (e : (⟨S2x800000, .i32⟩ : BufTy).Contents (Elt F)) :
    aggr96 h e = aggrRows96 h (srcIdx e) (dstIdx e) (norm e) := rfl

theorem aggr40_eq (h : (⟨S50000x40, .f32⟩ : BufTy).Contents (Elt F)) (e : (⟨S2x800000, .i32⟩ : BufTy).Contents (Elt F)) :
    aggr40 h e = aggrRows40 h (srcIdx e) (dstIdx e) (norm e) := rfl

end Cert.Spec

namespace Cert.KernelIdeal.HostRead

open Idealize.ShloMosaic Idealize.ShloMosaic.TcCoe Idealize.SL.Sem Idealize.ShloMosaic.StableHlo
open Cert.KernelIdeal Cert.KernelIdeal.Gen

variable {F : FTy → Type} [FloatOps F]

/-! ## Before the first launch: the edge lists and the edge weights -/

section Stretches
variable (W : Valuation τ sig (Elt F))

theorem pre_src : StableHlo.after hostOps0_2 (StableHlo.after hostOps0_1 (StableHlo.after hostOps0 W)) (Proc.devRef .tc main_v3) = Cert.Spec.srcIdx (F := F) (W (Proc.devRef .tc main_arg1)) := by
  after_results_simp <;> rfl
theorem pre_dst : StableHlo.after hostOps0_2 (StableHlo.after hostOps0_1 (StableHlo.after hostOps0 W)) (Proc.devRef .tc main_v6) = Cert.Spec.dstIdx (F := F) (W (Proc.devRef .tc main_arg1)) := by
  after_results_simp <;> rfl
theorem pre_norm : StableHlo.after hostOps0_2 (StableHlo.after hostOps0_1 (StableHlo.after hostOps0 W)) (Proc.devRef .tc main_v29) = Cert.Spec.norm (F := F) (W (Proc.devRef .tc main_arg1)) := by
  after_results_simp <;> rfl
theorem pre_arg0 : StableHlo.after hostOps0_2 (StableHlo.after hostOps0_1 (StableHlo.after hostOps0 W)) (Proc.devRef .tc main_arg0) = W (Proc.devRef .tc main_arg0) := by
  after_results_simp <;> rfl
theorem pre_arg2 : StableHlo.after hostOps0_2 (StableHlo.after hostOps0_1 (StableHlo.after hostOps0 W)) (Proc.devRef .tc main_arg2) = W (Proc.devRef .tc main_arg2) := by
  after_results_simp <;> rfl
theorem pre_arg3 : StableHlo.after hostOps0_2 (StableHlo.after hostOps0_1 (StableHlo.after hostOps0 W)) (Proc.devRef .tc main_arg3) = W (Proc.devRef .tc main_arg3) := by
  after_results_simp <;> rfl
theorem pre_arg4 : StableHlo.after hostOps0_2 (StableHlo.after hostOps0_1 (StableHlo.after hostOps0 W)) (Proc.devRef .tc main_arg4) = W (Proc.devRef .tc main_arg4) := by
  after_results_simp <;> rfl
theorem pre_arg5 : StableHlo.after hostOps0_2 (StableHlo.after hostOps0_1 (StableHlo.after hostOps0 W)) (Proc.devRef .tc main_arg5) = W (Proc.devRef .tc main_arg5) := by
  after_results_simp <;> rfl
theorem pre_arg6 : StableHlo.after hostOps0_2 (StableHlo.after hostOps0_1 (StableHlo.after hostOps0 W)) (Proc.devRef .tc main_arg6) = W (Proc.devRef .tc main_arg6) := by
  after_results_simp <;> rfl
theorem pre_arg7 : StableHlo.after hostOps0_2 (StableHlo.after hostOps0_1 (StableHlo.after hostOps0 W)) (Proc.devRef .tc main_arg7) = W (Proc.devRef .tc main_arg7) := by
  after_results_simp <;> rfl
theorem pre_arg8 : StableHlo.after hostOps0_2 (StableHlo.after hostOps0_1 (StableHlo.after hostOps0 W)) (Proc.devRef .tc main_arg8) = W (Proc.devRef .tc main_arg8) := by
  after_results_simp <;> rfl
theorem pre_arg9 : StableHlo.after hostOps0_2 (StableHlo.after hostOps0_1 (StableHlo.after hostOps0 W)) (Proc.devRef .tc main_arg9) = W (Proc.devRef .tc main_arg9) := by
  after_results_simp <;> rfl

/-! ## Between the first and the second launch -/

theorem mid1_agg : StableHlo.after hostOps1 W (Proc.devRef .tc main_v43)
    = Cert.Spec.aggrRows96 (F := F) (W (Proc.devRef .tc main_v30)) (W (Proc.devRef .tc main_v3)) (W (Proc.devRef .tc main_v6)) (W (Proc.devRef .tc main_v29)) := by
  after_results_simp <;> rfl
theorem mid1_b1row : StableHlo.after hostOps1 W (Proc.devRef .tc main_v44) = shapeCast S1x96 (W (Proc.devRef .tc main_arg3)) shapeCasts_S96_S1x96 := by
  after_results_simp <;> rfl
theorem mid1_bm1row : StableHlo.after hostOps1 W (Proc.devRef .tc main_v45) = shapeCast S1x64 (W (Proc.devRef .tc main_arg7)) shapeCasts_S64_S1x64 := by
  after_results_simp <;> rfl
theorem mid1_bm2row : StableHlo.after hostOps1 W (Proc.devRef .tc main_v46) = shapeCast S1x1 (W (Proc.devRef .tc main_arg9)) shapeCasts_S1_S1x1 := by
  after_results_simp <;> rfl
theorem mid1_keep_main_v3 : StableHlo.after hostOps1 W (Proc.devRef .tc main_v3) = W (Proc.devRef .tc main_v3) := by
  after_results_simp <;> rfl
theorem mid1_keep_main_v6 : StableHlo.after hostOps1 W (Proc.devRef .tc main_v6) = W (Proc.devRef .tc main_v6) := by
  after_results_simp <;> rfl
theorem mid1_keep_main_v29 : StableHlo.after hostOps1 W (Proc.devRef .tc main_v29) = W (Proc.devRef .tc main_v29) := by
  after_results_simp <;> rfl
theorem mid1_keep_main_arg4 : StableHlo.after hostOps1 W (Proc.devRef .tc main_arg4) = W (Proc.devRef .tc main_arg4) := by
  after_results_simp <;> rfl
theorem mid1_keep_main_arg5 : StableHlo.after hostOps1 W (Proc.devRef .tc main_arg5) = W (Proc.devRef .tc main_arg5) := by
  after_results_simp <;> rfl
theorem mid1_keep_main_arg6 : StableHlo.after hostOps1 W (Proc.devRef .tc main_arg6) = W (Proc.devRef .tc main_arg6) := by
  after_results_simp <;> rfl
theorem mid1_keep_main_arg8 : StableHlo.after hostOps1 W (Proc.devRef .tc main_arg8) = W (Proc.devRef .tc main_arg8) := by
  after_results_simp <;> rfl

/-! ## Between the second and the third launch -/

theorem mid2_z : StableHlo.after hostOps2 W (Proc.devRef .tc main_v63)
    = Cert.Spec.addBias40 (F := F) (Cert.Spec.aggrRows40 (F := F) (W (Proc.devRef .tc main_v47_0)) (W (Proc.devRef .tc main_v3)) (W (Proc.devRef .tc main_v6)) (W (Proc.devRef .tc main_v29))) (W (Proc.devRef .tc main_arg5)) := by
  after_results_simp <;> rfl
theorem mid2_keep_main_v47_1 : StableHlo.after hostOps2 W (Proc.devRef .tc main_v47_1) = W (Proc.devRef .tc main_v47_1) := by
  after_results_simp <;> rfl
theorem mid2_keep_main_v47_2 : StableHlo.after hostOps2 W (Proc.devRef .tc main_v47_2) = W (Proc.devRef .tc main_v47_2) := by
  after_results_simp <;> rfl

/-! ## After the third launch -/

theorem post_prob : StableHlo.after hostOps3 W (Proc.devRef .tc main_v65) = shapeCast S50000 (W (Proc.devRef .tc main_v47_1)) shapeCasts_S50000x1_S50000 := by
  after_results_simp <;> rfl
theorem post_mask : StableHlo.after hostOps3 W (Proc.devRef .tc main_v66) = shapeCast S50000 (W (Proc.devRef .tc main_v47_2)) shapeCasts_S50000x1_S50000 := by
  after_results_simp <;> rfl
theorem post_keep_main_v64 : StableHlo.after hostOps3 W (Proc.devRef .tc main_v64) = W (Proc.devRef .tc main_v64) := by
  after_results_simp <;> rfl

end Stretches

/-! ## A launch changes only its own operand arrays -/

section Launches
variable (m : (ℓ : Loc nD τ sig) → Buf (Elt F) ℓ) (ρ : Dev nD → PrngReg) (c : Dev nD)

theorem l0_keep_main_v3 : W4 m ρ c (Proc.devRef .tc main_v3) = W3 m ρ c (Proc.devRef .tc main_v3) := W4_of_ne m ρ c main_v3 (by decide)
theorem l0_keep_main_v6 : W4 m ρ c (Proc.devRef .tc main_v6) = W3 m ρ c (Proc.devRef .tc main_v6) := W4_of_ne m ρ c main_v6 (by decide)
theorem l0_keep_main_v29 : W4 m ρ c (Proc.devRef .tc main_v29) = W3 m ρ c (Proc.devRef .tc main_v29) := W4_of_ne m ρ c main_v29 (by decide)
theorem l0_keep_main_arg3 : W4 m ρ c (Proc.devRef .tc main_arg3) = W3 m ρ c (Proc.devRef .tc main_arg3) := W4_of_ne m ρ c main_arg3 (by decide)
theorem l0_keep_main_arg4 : W4 m ρ c (Proc.devRef .tc main_arg4) = W3 m ρ c (Proc.devRef .tc main_arg4) := W4_of_ne m ρ c main_arg4 (by decide)
theorem l0_keep_main_arg5 : W4 m ρ c (Proc.devRef .tc main_arg5) = W3 m ρ c (Proc.devRef .tc main_arg5) := W4_of_ne m ρ c main_arg5 (by decide)
theorem l0_keep_main_arg6 : W4 m ρ c (Proc.devRef .tc main_arg6) = W3 m ρ c (Proc.devRef .tc main_arg6) := W4_of_ne m ρ c main_arg6 (by decide)
theorem l0_keep_main_arg7 : W4 m ρ c (Proc.devRef .tc main_arg7) = W3 m ρ c (Proc.devRef .tc main_arg7) := W4_of_ne m ρ c main_arg7 (by decide)
theorem l0_keep_main_arg8 : W4 m ρ c (Proc.devRef .tc main_arg8) = W3 m ρ c (Proc.devRef .tc main_arg8) := W4_of_ne m ρ c main_arg8 (by decide)
theorem l0_keep_main_arg9 : W4 m ρ c (Proc.devRef .tc main_arg9) = W3 m ρ c (Proc.devRef .tc main_arg9) := W4_of_ne m ρ c main_arg9 (by decide)
theorem l1_keep_main_v3 : W6 m ρ c (Proc.devRef .tc main_v3) = W5 m ρ c (Proc.devRef .tc main_v3) := W6_of_ne m ρ c main_v3 (by decide)
theorem l1_keep_main_v6 : W6 m ρ c (Proc.devRef .tc main_v6) = W5 m ρ c (Proc.devRef .tc main_v6) := W6_of_ne m ρ c main_v6 (by decide)
theorem l1_keep_main_v29 : W6 m ρ c (Proc.devRef .tc main_v29) = W5 m ρ c (Proc.devRef .tc main_v29) := W6_of_ne m ρ c main_v29 (by decide)
theorem l1_keep_main_arg5 : W6 m ρ c (Proc.devRef .tc main_arg5) = W5 m ρ c (Proc.devRef .tc main_arg5) := W6_of_ne m ρ c main_arg5 (by decide)
theorem l2_keep_main_v47_1 : W8 m ρ c (Proc.devRef .tc main_v47_1) = W7 m ρ c (Proc.devRef .tc main_v47_1) := W8_of_ne m ρ c main_v47_1 (by decide)
theorem l2_keep_main_v47_2 : W8 m ρ c (Proc.devRef .tc main_v47_2) = W7 m ρ c (Proc.devRef .tc main_v47_2) := W8_of_ne m ρ c main_v47_2 (by decide)

theorem l0_out : W4 m ρ c (Proc.devRef .tc main_v30) = (dat0 (V3 m ρ) c).arrAt 2 cfg0.N := W4_arr m ρ c 2
theorem l1_out7 : W6 m ρ c (Proc.devRef .tc main_v47_0) = (dat1 (V5 m ρ) c).arrAt 7 cfg1.N := W6_arr m ρ c 7
theorem l1_out8 : W6 m ρ c (Proc.devRef .tc main_v47_1) = (dat1 (V5 m ρ) c).arrAt 8 cfg1.N := W6_arr m ρ c 8
theorem l1_out9 : W6 m ρ c (Proc.devRef .tc main_v47_2) = (dat1 (V5 m ρ) c).arrAt 9 cfg1.N := W6_arr m ρ c 9
theorem l2_out : W8 m ρ c (Proc.devRef .tc main_v64) = (dat2 (V7 m ρ) c).arrAt 1 cfg2.N := W8_arr m ρ c 1

end Launches

end Cert.KernelIdeal.HostRead

end
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.KernelChain.lean ====
/-
  The three results of the whole kernel program as functions of the ten argument arrays, read off the contents at the
  nine boundaries between stretches of array operations and kernel launches, given what each launch leaves in its result
  arrays (the four hypotheses of the closing section: the first launch leaves x W1; the second leaves hid W2 and, read
  as vectors, the probability and the mask; the third leaves the row-wise log-softmax).

  Boundary by boundary: the edge lists and weights are computed before the first launch and kept by everything after;
  the weighted neighbour sum of x W1 enters the second launch with the three bias vectors as rows (a vector reshaped to a
  row is the vector broadcast along a new first axis); the weighted neighbour sum of hid W2 plus b2 enters the third.
-/
import proofs.«153174_j81338090651993_1_alg».proof.Proof.HostRead
import proofs.«153174_j81338090651993_1_alg».proof.Proof.LibLayout

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.HostRead

variable (m : (ℓ : Loc nD τ sig) → Buf (Elt Ideal) ℓ) (ρ : Dev nD → PrngReg) (c : Dev nD)

/-! ## At the first launch -/

theorem src3 : W3 m ρ c (Proc.devRef .tc main_v3) = Cert.Spec.srcIdx (F := Ideal) (m ((c.tc : Thread nD τ).loc main_arg1)) := pre_src (W0 m ρ c)
theorem dst3 : W3 m ρ c (Proc.devRef .tc main_v6) = Cert.Spec.dstIdx (F := Ideal) (m ((c.tc : Thread nD τ).loc main_arg1)) := pre_dst (W0 m ρ c)
theorem nrm3 : W3 m ρ c (Proc.devRef .tc main_v29) = Cert.Spec.norm (F := Ideal) (m ((c.tc : Thread nD τ).loc main_arg1)) := pre_norm (W0 m ρ c)
theorem arg0_3 : W3 m ρ c (Proc.devRef .tc main_arg0) = (m ((c.tc : Thread nD τ).loc main_arg0)) := pre_arg0 (W0 m ρ c)
theorem arg2_3 : W3 m ρ c (Proc.devRef .tc main_arg2) = (m ((c.tc : Thread nD τ).loc main_arg2)) := pre_arg2 (W0 m ρ c)
theorem arg3_3 : W3 m ρ c (Proc.devRef .tc main_arg3) = (m ((c.tc : Thread nD τ).loc main_arg3)) := pre_arg3 (W0 m ρ c)
theorem arg4_3 : W3 m ρ c (Proc.devRef .tc main_arg4) = (m ((c.tc : Thread nD τ).loc main_arg4)) := pre_arg4 (W0 m ρ c)
theorem arg5_3 : W3 m ρ c (Proc.devRef .tc main_arg5) = (m ((c.tc : Thread nD τ).loc main_arg5)) := pre_arg5 (W0 m ρ c)
theorem arg6_3 : W3 m ρ c (Proc.devRef .tc main_arg6) = (m ((c.tc : Thread nD τ).loc main_arg6)) := pre_arg6 (W0 m ρ c)
theorem arg7_3 : W3 m ρ c (Proc.devRef .tc main_arg7) = (m ((c.tc : Thread nD τ).loc main_arg7)) := pre_arg7 (W0 m ρ c)
theorem arg8_3 : W3 m ρ c (Proc.devRef .tc main_arg8) = (m ((c.tc : Thread nD τ).loc main_arg8)) := pre_arg8 (W0 m ρ c)
theorem arg9_3 : W3 m ρ c (Proc.devRef .tc main_arg9) = (m ((c.tc : Thread nD τ).loc main_arg9)) := pre_arg9 (W0 m ρ c)

/-! ## After the first launch -/

theorem src4 : W4 m ρ c (Proc.devRef .tc main_v3) = Cert.Spec.srcIdx (F := Ideal) (m ((c.tc : Thread nD τ).loc main_arg1)) := (l0_keep_main_v3 m ρ c).trans (src3 m ρ c)
theorem dst4 : W4 m ρ c (Proc.devRef .tc main_v6) = Cert.Spec.dstIdx (F := Ideal) (m ((c.tc : Thread nD τ).loc main_arg1)) := (l0_keep_main_v6 m ρ c).trans (dst3 m ρ c)
theorem nrm4 : W4 m ρ c (Proc.devRef .tc main_v29) = Cert.Spec.norm (F := Ideal) (m ((c.tc : Thread nD τ).loc main_arg1)) := (l0_keep_main_v29 m ρ c).trans (nrm3 m ρ c)
theorem arg3_4 : W4 m ρ c (Proc.devRef .tc main_arg3) = (m ((c.tc : Thread nD τ).loc main_arg3)) := (l0_keep_main_arg3 m ρ c).trans (arg3_3 m ρ c)
theorem arg4_4 : W4 m ρ c (Proc.devRef .tc main_arg4) = (m ((c.tc : Thread nD τ).loc main_arg4)) := (l0_keep_main_arg4 m ρ c).trans (arg4_3 m ρ c)
theorem arg5_4 : W4 m ρ c (Proc.devRef .tc main_arg5) = (m ((c.tc : Thread nD τ).loc main_arg5)) := (l0_keep_main_arg5 m ρ c).trans (arg5_3 m ρ c)
theorem arg6_4 : W4 m ρ c (Proc.devRef .tc main_arg6) = (m ((c.tc : Thread nD τ).loc main_arg6)) := (l0_keep_main_arg6 m ρ c).trans (arg6_3 m ρ c)
theorem arg7_4 : W4 m ρ c (Proc.devRef .tc main_arg7) = (m ((c.tc : Thread nD τ).loc main_arg7)) := (l0_keep_main_arg7 m ρ c).trans (arg7_3 m ρ c)
theorem arg8_4 : W4 m ρ c (Proc.devRef .tc main_arg8) = (m ((c.tc : Thread nD τ).loc main_arg8)) := (l0_keep_main_arg8 m ρ c).trans (arg8_3 m ρ c)
theorem arg9_4 : W4 m ρ c (Proc.devRef .tc main_arg9) = (m ((c.tc : Thread nD τ).loc main_arg9)) := (l0_keep_main_arg9 m ρ c).trans (arg9_3 m ρ c)

/-! ## At the second launch -/

theorem src5 : W5 m ρ c (Proc.devRef .tc main_v3) = Cert.Spec.srcIdx (F := Ideal) (m ((c.tc : Thread nD τ).loc main_arg1)) := (mid1_keep_main_v3 (W4 m ρ c)).trans (src4 m ρ c)
theorem dst5 : W5 m ρ c (Proc.devRef .tc main_v6) = Cert.Spec.dstIdx (F := Ideal) (m ((c.tc : Thread nD τ).loc main_arg1)) := (mid1_keep_main_v6 (W4 m ρ c)).trans (dst4 m ρ c)
theorem nrm5 : W5 m ρ c (Proc.devRef .tc main_v29) = Cert.Spec.norm (F := Ideal) (m ((c.tc : Thread nD τ).loc main_arg1)) := (mid1_keep_main_v29 (W4 m ρ c)).trans (nrm4 m ρ c)
theorem arg4_5 : W5 m ρ c (Proc.devRef .tc main_arg4) = (m ((c.tc : Thread nD τ).loc main_arg4)) := (mid1_keep_main_arg4 (W4 m ρ c)).trans (arg4_4 m ρ c)
theorem arg5_5 : W5 m ρ c (Proc.devRef .tc main_arg5) = (m ((c.tc : Thread nD τ).loc main_arg5)) := (mid1_keep_main_arg5 (W4 m ρ c)).trans (arg5_4 m ρ c)
theorem arg6_5 : W5 m ρ c (Proc.devRef .tc main_arg6) = (m ((c.tc : Thread nD τ).loc main_arg6)) := (mid1_keep_main_arg6 (W4 m ρ c)).trans (arg6_4 m ρ c)
theorem arg8_5 : W5 m ρ c (Proc.devRef .tc main_arg8) = (m ((c.tc : Thread nD τ).loc main_arg8)) := (mid1_keep_main_arg8 (W4 m ρ c)).trans (arg8_4 m ρ c)

/-- The first bias as the second launch finds it: the vector as a 1 x 96 row. -/
theorem b1row5 : W5 m ρ c (Proc.devRef .tc main_v44) = Cert.Spec.row96 (F := Ideal) (m ((c.tc : Thread nD τ).loc main_arg3)) := by
  refine (mid1_b1row (W4 m ρ c)).trans ?_
  rw [arg3_4 m ρ c]
  exact Cert.Proof.Layout.reshape_row_eq_broadcastInDim _ _ _
theorem bm1row5 : W5 m ρ c (Proc.devRef .tc main_v45) = Cert.Spec.row64 (F := Ideal) (m ((c.tc : Thread nD τ).loc main_arg7)) := by
  refine (mid1_bm1row (W4 m ρ c)).trans ?_
  rw [arg7_4 m ρ c]
  exact Cert.Proof.Layout.reshape_row_eq_broadcastInDim _ _ _
theorem bm2row5 : W5 m ρ c (Proc.devRef .tc main_v46) = Cert.Spec.row1 (F := Ideal) (m ((c.tc : Thread nD τ).loc main_arg9)) := by
  refine (mid1_bm2row (W4 m ρ c)).trans ?_
  rw [arg9_4 m ρ c]
  exact Cert.Proof.Layout.reshape_row_eq_broadcastInDim _ _ _

section Launch0
variable (h0 : ∀ (V : (c : Dev nD) → (b : Ref sig .tc) → Buf (Elt Ideal) ((c : Thread nD τ).loc b)) (c : Dev nD),
  (dat0 (F := Ideal) V c).arrAt 2 cfg0.N = Cert.Spec.lin (F := Ideal) (V c main_arg0) (V c main_arg2))
include h0

theorem lin4 : W4 m ρ c (Proc.devRef .tc main_v30) = Cert.Spec.lin (F := Ideal) (m ((c.tc : Thread nD τ).loc main_arg0)) (m ((c.tc : Thread nD τ).loc main_arg2)) := by
  refine (l0_out m ρ c).trans ((h0 (V3 m ρ) c).trans ?_)
  show Cert.Spec.lin (F := Ideal) (W3 m ρ c (Proc.devRef .tc main_arg0)) (W3 m ρ c (Proc.devRef .tc main_arg2)) = _
  rw [arg0_3 m ρ c, arg2_3 m ρ c]

/-- The weighted neighbour sum of x W1, as the second launch finds it. -/
theorem agg5 : W5 m ρ c (Proc.devRef .tc main_v43) = Cert.Spec.aggr96 (F := Ideal) (Cert.Spec.lin (F := Ideal) (m ((c.tc : Thread nD τ).loc main_arg0)) (m ((c.tc : Thread nD τ).loc main_arg2))) (m ((c.tc : Thread nD τ).loc main_arg1)) := by
  rw [Cert.Spec.aggr96_eq]
  refine (mid1_agg (W4 m ρ c)).trans ?_
  rw [lin4 m ρ c h0, src4 m ρ c, dst4 m ρ c, nrm4 m ρ c]

end Launch0

/-! ## Buffers kept across the second and third launches -/

theorem src6 : W6 m ρ c (Proc.devRef .tc main_v3) = Cert.Spec.srcIdx (F := Ideal) (m ((c.tc : Thread nD τ).loc main_arg1)) := (l1_keep_main_v3 m ρ c).trans (src5 m ρ c)
theorem dst6 : W6 m ρ c (Proc.devRef .tc main_v6) = Cert.Spec.dstIdx (F := Ideal) (m ((c.tc : Thread nD τ).loc main_arg1)) := (l1_keep_main_v6 m ρ c).trans (dst5 m ρ c)
theorem nrm6 : W6 m ρ c (Proc.devRef .tc main_v29) = Cert.Spec.norm (F := Ideal) (m ((c.tc : Thread nD τ).loc main_arg1)) := (l1_keep_main_v29 m ρ c).trans (nrm5 m ρ c)
theorem arg5_6 : W6 m ρ c (Proc.devRef .tc main_arg5) = (m ((c.tc : Thread nD τ).loc main_arg5)) := (l1_keep_main_arg5 m ρ c).trans (arg5_5 m ρ c)
theorem probCol8 : W8 m ρ c (Proc.devRef .tc main_v47_1) = W6 m ρ c (Proc.devRef .tc main_v47_1) :=
  (l2_keep_main_v47_1 m ρ c).trans (mid2_keep_main_v47_1 (W6 m ρ c))
theorem maskCol8 : W8 m ρ c (Proc.devRef .tc main_v47_2) = W6 m ρ c (Proc.devRef .tc main_v47_2) :=
  (l2_keep_main_v47_2 m ρ c).trans (mid2_keep_main_v47_2 (W6 m ρ c))

section Launch1
variable (h0 : ∀ (V : (c : Dev nD) → (b : Ref sig .tc) → Buf (Elt Ideal) ((c : Thread nD τ).loc b)) (c : Dev nD),
  (dat0 (F := Ideal) V c).arrAt 2 cfg0.N = Cert.Spec.lin (F := Ideal) (V c main_arg0) (V c main_arg2))
variable (h1 : ∀ (V : (c : Dev nD) → (b : Ref sig .tc) → Buf (Elt Ideal) ((c : Thread nD τ).loc b)) (c : Dev nD),
  (dat1 (F := Ideal) V c).arrAt 7 cfg1.N = Cert.Spec.proj40 (F := Ideal) (Cert.Spec.hidden (F := Ideal) (V c main_v43) (V c main_v44)) (V c main_arg4))
variable (h1p : ∀ (V : (c : Dev nD) → (b : Ref sig .tc) → Buf (Elt Ideal) ((c : Thread nD τ).loc b)) (c : Dev nD),
  shapeCast S50000 ((dat1 (F := Ideal) V c).arrAt 8 cfg1.N) shapeCasts_S50000x1_S50000
    = Cert.Spec.probVec (F := Ideal) (Cert.Spec.scoreCol (F := Ideal) (Cert.Spec.hidden (F := Ideal) (V c main_v43) (V c main_v44)) (V c main_arg6) (V c main_v45) (V c main_arg8) (V c main_v46)))
variable (h1m : ∀ (V : (c : Dev nD) → (b : Ref sig .tc) → Buf (Elt Ideal) ((c : Thread nD τ).loc b)) (c : Dev nD),
  shapeCast S50000 ((dat1 (F := Ideal) V c).arrAt 9 cfg1.N) shapeCasts_S50000x1_S50000
    = Cert.Spec.maskVec (F := Ideal) (Cert.Spec.probVec (F := Ideal) (Cert.Spec.scoreCol (F := Ideal) (Cert.Spec.hidden (F := Ideal) (V c main_v43) (V c main_v44)) (V c main_arg6) (V c main_v45) (V c main_arg8) (V c main_v46))))
variable (h2 : ∀ (V : (c : Dev nD) → (b : Ref sig .tc) → Buf (Elt Ideal) ((c : Thread nD τ).loc b)) (c : Dev nD),
  (dat2 (F := Ideal) V c).arrAt 1 cfg2.N = Cert.Spec.logSoftmax (F := Ideal) (V c main_v63))
include h0 h1 h1p h1m h2

/-- The hidden features, as the second launch computes them from what it finds. -/
theorem hid5 : Cert.Spec.hidden (F := Ideal) (W5 m ρ c (Proc.devRef .tc main_v43)) (W5 m ρ c (Proc.devRef .tc main_v44)) = (Cert.Spec.hid (F := Ideal) (m ((c.tc : Thread nD τ).loc main_arg0)) (m ((c.tc : Thread nD τ).loc main_arg1)) (m ((c.tc : Thread nD τ).loc main_arg2)) (m ((c.tc : Thread nD τ).loc main_arg3))) := by
  rw [agg5 m ρ c h0, b1row5 m ρ c]
  rfl

/-! ## After the second launch -/

theorem proj6 : W6 m ρ c (Proc.devRef .tc main_v47_0) = Cert.Spec.proj40 (F := Ideal) (Cert.Spec.hid (F := Ideal) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
  refine (l1_out7 m ρ c).trans ((h1 (V5 m ρ) c).trans ?_)
  show Cert.Spec.proj40 (F := Ideal) (Cert.Spec.hidden (F := Ideal) (W5 m ρ c (Proc.devRef .tc main_v43)) (W5 m ρ c (Proc.devRef .tc main_v44))) (W5 m ρ c (Proc.devRef .tc main_arg4)) = _
  rw [hid5 m ρ c h0 h1 h1p h1m h2, arg4_5 m ρ c]

theorem prob6 : shapeCast S50000 (W6 m ρ c (Proc.devRef .tc main_v47_1)) shapeCasts_S50000x1_S50000 = (Cert.Spec.prob (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))) := by
  rw [l1_out8 m ρ c]
  refine (h1p (V5 m ρ) c).trans ?_
  show Cert.Spec.probVec (F := Ideal) (Cert.Spec.scoreCol (F := Ideal) (Cert.Spec.hidden (F := Ideal) (W5 m ρ c (Proc.devRef .tc main_v43)) (W5 m ρ c (Proc.devRef .tc main_v44))) (W5 m ρ c (Proc.devRef .tc main_arg6)) (W5 m ρ c (Proc.devRef .tc main_v45)) (W5 m ρ c (Proc.devRef .tc main_arg8)) (W5 m ρ c (Proc.devRef .tc main_v46))) = _
  rw [hid5 m ρ c h0 h1 h1p h1m h2, arg6_5 m ρ c, bm1row5 m ρ c, arg8_5 m ρ c, bm2row5 m ρ c]
  rfl

theorem mask6 : shapeCast S50000 (W6 m ρ c (Proc.devRef .tc main_v47_2)) shapeCasts_S50000x1_S50000 = Cert.Spec.maskVec (F := Ideal) (Cert.Spec.prob (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))) := by
  rw [l1_out9 m ρ c]
  refine (h1m (V5 m ρ) c).trans ?_
  show Cert.Spec.maskVec (F := Ideal) (Cert.Spec.probVec (F := Ideal) (Cert.Spec.scoreCol (F := Ideal) (Cert.Spec.hidden (F := Ideal) (W5 m ρ c (Proc.devRef .tc main_v43)) (W5 m ρ c (Proc.devRef .tc main_v44))) (W5 m ρ c (Proc.devRef .tc main_arg6)) (W5 m ρ c (Proc.devRef .tc main_v45)) (W5 m ρ c (Proc.devRef .tc main_arg8)) (W5 m ρ c (Proc.devRef .tc main_v46)))) = _
  rw [hid5 m ρ c h0 h1 h1p h1m h2, arg6_5 m ρ c, bm1row5 m ρ c, arg8_5 m ρ c, bm2row5 m ρ c]
  rfl

/-! ## At and after the third launch -/

theorem z7 : W7 m ρ c (Proc.devRef .tc main_v63)
    = Cert.Spec.addBias40 (F := Ideal) (Cert.Spec.aggr40 (F := Ideal) (Cert.Spec.proj40 (F := Ideal) (Cert.Spec.hid (F := Ideal) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg1))) (m ((c.tc : Thread nD τ).loc main_arg5)) := by
  rw [Cert.Spec.aggr40_eq]
  refine (mid2_z (W6 m ρ c)).trans ?_
  rw [proj6 m ρ c h0 h1 h1p h1m h2, src6 m ρ c, dst6 m ρ c, nrm6 m ρ c, arg5_6 m ρ c]

theorem logits8 : W8 m ρ c (Proc.devRef .tc main_v64) = (Cert.Spec.logits (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  refine (l2_out m ρ c).trans ((h2 (V7 m ρ) c).trans ?_)
  show Cert.Spec.logSoftmax (F := Ideal) (W7 m ρ c (Proc.devRef .tc main_v63)) = _
  rw [z7 m ρ c h0 h1 h1p h1m h2]
  rfl

/-! ## The three results -/

theorem result_logits : W9 m ρ c (Proc.devRef .tc main_v64) = (Cert.Spec.logits (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :=
  (post_keep_main_v64 (W8 m ρ c)).trans (logits8 m ρ c h0 h1 h1p h1m h2)

theorem result_prob : W9 m ρ c (Proc.devRef .tc main_v65) = (Cert.Spec.prob (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))) := by
  refine (post_prob (W8 m ρ c)).trans ?_
  rw [probCol8 m ρ c]
  exact prob6 m ρ c h0 h1 h1p h1m h2

theorem result_mask : W9 m ρ c (Proc.devRef .tc main_v66) = Cert.Spec.maskVec (F := Ideal) (Cert.Spec.prob (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))) := by
  refine (post_mask (W8 m ρ c)).trans ?_
  rw [maskCol8 m ρ c]
  exact mask6 m ρ c h0 h1 h1p h1m h2

end Launch1

end Cert.KernelIdeal.Chain

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.Region0.lean ====
/-
  REGION 0: THE FIRST LINEAR LAYER, BLOCK BY BLOCK, IS THE WHOLE PRODUCT x W1.

  The feature array x [50000, 128] is worked in five blocks of 10000 consecutive rows; at grid point t the body
  multiplies rows 10000 t … 10000 t + 9999 of x by the whole weight matrix W1 [128, 96], accumulating from zero, and
  the result is written back as rows 10000 t … 10000 t + 9999 of the output [50000, 96]. Narrowing the operands to
  bf16 on the way in is the identity at the extended reals.

  Element (p, q) of the block product is the sum over k of block (p, k) W1 (k, q); block row p of point t is array
  row 10000 t + p; element (r, q) of the whole product x W1 is the sum over k of x (r, k) W1 (k, q). So what point t
  writes back is block t of x W1; every row r lies in the block of point r / 10000; hence the output array ends
  holding x W1.
-/
import proofs.«153174_j81338090651993_1_alg».proof.Proof.Gen.KernelIdeal.Frame
import proofs.«153174_j81338090651993_1_alg».proof.Proof.Spec
import proofs.«153174_j81338090651993_1_alg».proof.Proof.LibBlocks
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)
open Cert.KernelIdeal Cert.KernelIdeal.Gen

namespace Cert.KernelIdeal.Region0

/-- The zero offsets of a two-axis block, as the constant function. -/
theorem hz : (![0, 0] : Fin 2 → Nat) = fun _ => 0 := funext fun a => by fin_cases a <;> rfl

/-- The block product's dimension numbers are the plain rows-by-columns ones. -/
theorem hdk : Cert.KernelIdeal.dot_S10000x128_S128x96_S10000x96_1_0_0_1_n_n = DotDims.plain 10000 128 96 := rfl

/-- So are the whole product's. -/
theorem hdr : Cert.ReferenceIdeal.dot_S50000x128_S128x96_S50000x96_1_0_0_1_n_n = DotDims.plain 50000 128 96 := rfl

/-- Element (p, q) of the body's product of a block with a matrix is element (r, q) of the whole product x w, when
    block row p is row r of x and the matrix is w. -/
theorem pay_entry (x0 : Vec Ideal S10000x128 .f32) (x1 : Vec Ideal S128x96 .f32)
    (x : FVec Ideal ⟨2, ![50000, 128]⟩ .f32) (w : FVec Ideal ⟨2, ![128, 96]⟩ .f32)
    (p : Fin 10000) (r : Fin 50000) (q : Fin 96)
    (h0 : ∀ k : Fin 128, x0 (ix2 p k) = x (ix2 r k)) (h1 : x1 = w) :
    k0_pay1 (F := Ideal) x0 x1 (ix2 p q) = Cert.Spec.lin (F := Ideal) x w (ix2 r q) := by
  subst h1
  unfold k0_pay1 Cert.Spec.lin
  show FloatOps.matmul _ none _ _ _ _ = FloatOps.dotGeneral _ none .single x x1 (ix2 r q)
  rw [Cert.LibBlocks.matmul_plain_apply _ hdk, Cert.LibBlocks.dotGeneral_plain_apply _ hdr]
  refine Finset.sum_congr rfl fun k _ => ?_
  rw [truncf_apply, truncf_apply, h0 k]

/-- The index maps over the grid: the row windows sit at block (t, 0), the weight window at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back to the output is block t of the whole product x W1 of the arrays as the region finds them. -/
theorem flushed_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (Cert.Spec.lin (F := Ideal) (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x96) hz]
  obtain ⟨e0, e1, e2, e3, e4, e5⟩ := idx_facts t
  have hN : t.val < 5 := lt_of_lt_of_eq t.isLt N_0
  funext j
  obtain ⟨p, q, rfl⟩ : ∃ (p : Fin 10000) (q : Fin 96), j = ix2 p q := ⟨j 0, j 1, eq_ix2 j⟩
  have hr : t.val * 10000 + p.val < 50000 := by have := p.isLt; omega
  show k0_pay1 (F := Ideal) (iblk0 V c 0 t) (iblk0 V c 1 t) (ix2 p q) = Cert.Spec.lin (F := Ideal) (V c main_arg0) (V c main_arg2) (((cfg0.win 2).blk t).view.emb (ix2 p q))
  have hemb : ((cfg0.win 2).blk t).view.emb (ix2 p q) = ix2 (⟨t.val * 10000 + p.val, hr⟩ : Fin 50000) q := by
    funext a; apply Fin.ext
    match a with
    | ⟨0, _⟩ => show win0_2.index t (0 : Fin 2) * 10000 + 1 * p.val = t.val * 10000 + p.val; omega
    | ⟨1, _⟩ => show win0_2.index t (1 : Fin 2) * 96 + 1 * q.val = q.val; omega
  rw [hemb]
  refine pay_entry (iblk0 V c 0 t) (iblk0 V c 1 t) (V c main_arg0) (V c main_arg2) p ⟨t.val * 10000 + p.val, hr⟩ q
    (fun k => ?_) ?_
  · -- block row p of the feature window is array row 10000 t + p
    show V c main_arg0 (((cfg0.win 0).blk t).view.emb (ix2 p k)) = _
    congr 1
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  · -- the weight window's one block is the whole matrix
    funext j
    show V c main_arg2 (((cfg0.win 1).blk t).view.emb j) = V c main_arg2 j
    congr 1
    funext a; apply Fin.ext
    match a with
    | ⟨0, _⟩ => show win0_1.index t (0 : Fin 2) * 128 + 1 * (j 0).val = (j 0).val; omega
    | ⟨1, _⟩ => show win0_1.index t (1 : Fin 2) * 96 + 1 * (j 1).val = (j 1).val; omega

/-- An index of the output array is in point t's block iff each coordinate is in the block's range on its axis. -/
theorem mem_blk (t : Fin cfg0.N) (i : S50000x96.Idx) :
    i ∈ ((cfg0.win 2).blk t).view.set
      ↔ ∀ a : Fin 2, win0_2.index t a * S10000x96.size a ≤ (i a).val
          ∧ (i a).val < win0_2.index t a * S10000x96.size a + S10000x96.size a := by
  show i ∈ ((View.whole main_v30).slice (win0_2.rect t)).set ↔ _
  rw [View.set_slice_whole, Rect.mem_set_unit]
  exact Iff.rfl

/-- Every element of the output array lies in the block of some point that writes back: row r in that of point r / 10000. -/
theorem covered (i : S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  have hq : (i 0).val / 10000 < cfg0.N := lt_of_lt_of_eq (by omega : (i 0).val / 10000 < 5) N_0.symm
  refine ⟨⟨(i 0).val / 10000, hq⟩, flush0_2 _, ?_⟩
  rw [mem_blk]
  obtain ⟨-, -, -, -, e4, e5⟩ := idx_facts ⟨(i 0).val / 10000, hq⟩
  intro a
  match a with
  | ⟨0, _⟩ =>
    show win0_2.index ⟨(i 0).val / 10000, hq⟩ (0 : Fin 2) * 10000 ≤ (i 0).val
      ∧ (i 0).val < win0_2.index ⟨(i 0).val / 10000, hq⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, hq⟩ (1 : Fin 2) * 96 ≤ (i 1).val
      ∧ (i 1).val < win0_2.index ⟨(i 0).val / 10000, hq⟩ (1 : Fin 2) * 96 + 96
    rw [e5]
    omega

/-- THE OUTPUT ARRAY after the region: the whole product x W1 of the feature array and the weight matrix as the
    region finds them. -/
theorem array_eq (V : (c : Dev nD) → (b : Ref sig .tc) → Buf (Elt Ideal) ((c : Thread nD τ).loc b)) (c : Dev nD) :
    (dat0 (F := Ideal) V c).arrAt 2 cfg0.N = Cert.Spec.lin (F := Ideal) (V c main_arg0) (V c main_arg2) :=
  (dat0 (F := Ideal) V c).arrAt_eq_of_cover 2 (Cert.Spec.lin (F := Ideal) (V c main_arg0) (V c main_arg2))
    (fun t _ => flushed_eq V c t) covered

end Cert.KernelIdeal.Region0

end
-- ==== Proof.LibDenseLayer.lean ====
/-
  ONE DENSE LAYER ON A BLOCK OF ROWS, SET BESIDE THE SAME LAYER ON THE WHOLE ARRAY, READ AT ONE ENTRY.

  A dense layer sends a row x of K numbers to the row  q ↦ (Σ_k x_k · w(k, q)) + c(0, q),  optionally followed by the
  rectifier max(·, 0). It acts on every row by itself. So if row p of a block [n, K] is row r of an array [N, K], then
  entry (p, q) of the layer applied to the block is entry (r, q) of the layer applied to the array:

  * product_entry: the matrix unit's product into a zero accumulator, both operands narrowed on the way in, against
    the host's product (a change of float format is the identity on the extended reals, and both products are the
    sum over k of left (row, k) · right (k, q), in the same order);
  * hidden_entry: product, bias row broadcast down the rows, rectifier;
  * out_entry: product and bias row only.

  The bias is a 1 x b row on both sides; the block broadcasts it as a vector broadcast, the array along its two axes.
  Generic in the extents; a program's dimension numbers enter through an equation with the plain rows-by-columns
  record.
-/
import proofs.«153174_j81338090651993_1_alg».proof.Proof.LibBlocks

noncomputable section

open scoped BigOperators

namespace Cert.LibDenseLayer

open Idealize.ShloMosaic Idealize.ShloMosaic.ValueIdx

variable {n N K b : Nat}

/-- The product: entry (p, q) of block times matrix is entry (r, q) of array times matrix, when block row p is array
    row r. -/
theorem product_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (X : FVec Ideal ⟨2, ![n, K]⟩ .f32) (XX : FVec Ideal ⟨2, ![N, K]⟩ .f32) (w : FVec Ideal ⟨2, ![K, b]⟩ .f32)
    (p : Fin n) (r : Fin N) (h0 : ∀ k : Fin K, X (ix2 p k) = XX (ix2 r k)) (q : Fin b) :
    matmul dk none (truncf .bf16 X hlt) (truncf .bf16 w hlt) (constant ⟨2, ![n, b]⟩ .f32 0x00000000#32) (ix2 p q)
      = Host.dotGeneral dr none XX w (ix2 r q) := by
  show FloatOps.matmul dk none _ _ _ _ = FloatOps.dotGeneral dr none .single XX w (ix2 r q)
  rw [Cert.LibBlocks.matmul_plain_apply dk hdk, Cert.LibBlocks.dotGeneral_plain_apply dr hdr]
  refine Finset.sum_congr rfl fun k _ => ?_
  rw [truncf_apply, truncf_apply, h0 k]

/-- The bias row broadcast down the rows of a block, at entry (p, q): the row's entry q. -/
theorem bias_block_entry
    (hc1 : (⟨2, ![1, b]⟩ : Shape).ShapeCasts ⟨2, ![1, b]⟩) (hb : (⟨2, ![1, b]⟩ : Shape).Broadcasts ⟨2, ![n, b]⟩)
    (c : FVec Ideal ⟨2, ![1, b]⟩ .f32) (p : Fin n) (q : Fin b) :
    broadcastTo ⟨2, ![n, b]⟩ (shapeCast ⟨2, ![1, b]⟩ c hc1) hb (ix2 p q) = c (ix2 (0 : Fin 1) q) := by
  rw [shapeCast_self]
  exact broadcastTo_apply c hb (ix2 p q) (ix2 (0 : Fin 1) q) (fun a => by
    match a with
    | ⟨0, _⟩ => rfl
    | ⟨1, _⟩ =>
      show q.val = if b = 1 then 0 else q.val
      have := q.isLt
      split_ifs <;> omega)

/-- The bias row broadcast along both axes of the array, at entry (r, q): the row's entry q. -/
theorem bias_array_entry
    (hbd : (⟨2, ![1, b]⟩ : Shape).BroadcastsInDim ⟨2, ![N, b]⟩ ![0, 1])
    (c : FVec Ideal ⟨2, ![1, b]⟩ .f32) (r : Fin N) (q : Fin b) :
    broadcastInDim ⟨2, ![N, b]⟩ ![0, 1] hbd c (ix2 r q) = c (ix2 (0 : Fin 1) q) :=
  broadcastInDim_apply ![0, 1] hbd c (ix2 r q) (ix2 (0 : Fin 1) q) (fun a => by
    match a with
    | ⟨0, _⟩ => rfl
    | ⟨1, _⟩ =>
      show q.val = if b = 1 then 0 else q.val
      have := q.isLt
      split_ifs <;> omega)

/-- Product and bias: entry (p, q) on the block is entry (r, q) on the array. -/
theorem out_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    addf (matmul dk none (truncf .bf16 X hlt) (truncf .bf16 w hlt) (constant ⟨2, ![n, b]⟩ .f32 0x00000000#32))
        (broadcastTo ⟨2, ![n, b]⟩ (shapeCast ⟨2, ![1, b]⟩ c hc1) hb) (ix2 p q)
      = addf (Host.dotGeneral dr none XX w) (broadcastInDim ⟨2, ![N, b]⟩ ![0, 1] hbd c) (ix2 r q) := by
  rw [addf_apply, addf_apply, product_entry dk hdk dr hdr hlt X XX w p r h0 q, bias_block_entry hc1 hb c p q,
    bias_array_entry hbd c r q]

/-- Product, bias and rectifier: entry (p, q) on the block is entry (r, q) on the array. -/
theorem hidden_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    maximumf (addf (matmul dk none (truncf .bf16 X hlt) (truncf .bf16 w hlt) (constant ⟨2, ![n, b]⟩ .f32 0x00000000#32))
          (broadcastTo ⟨2, ![n, b]⟩ (shapeCast ⟨2, ![1, b]⟩ c hc1) hb))
        (broadcast ⟨2, ![n, b]⟩ (Scalar.ofBits (F := Ideal) .f32 0x00000000#32)) (ix2 p q)
      = maximumf (addf (Host.dotGeneral dr none XX w) (broadcastInDim ⟨2, ![N, b]⟩ ![0, 1] hbd c))
        (broadcastInDim ⟨2, ![N, b]⟩ ![] hz (constant (F := Ideal) ⟨0, ![]⟩ .f32 0x00000000#32)) (ix2 r q) := by
  rw [maximumf_apply, maximumf_apply, out_entry dk hdk dr hdr hlt hc1 hb hbd X XX w c p r h0 q,
    broadcastInDim_apply ![] hz (constant (F := Ideal) ⟨0, ![]⟩ .f32 0x00000000#32) (ix2 r q) ix0 (fun a => a.elim0)]
  rfl

end Cert.LibDenseLayer

end
-- ==== Proof.Region1Proj.lean ====
/-
  THE FIRST OUTPUT OF THE HEAD KERNEL AS ONE WHOLE-ARRAY FUNCTION OF ITS INPUTS.

  The kernel walks an array A of 50000 rows and 96 columns in five blocks of 10000 consecutive rows. At block t it
  takes A_t, rows 10000 t … 10000 t + 9999 of A, forms H_t = max(A_t + b, 0) with the 1 x 96 row b added to every row,
  and writes the product H_t W (W is 96 x 40, summed from zero) to rows 10000 t … 10000 t + 9999 of a 50000 x 40 array.

  Claim (array_eq): after the five blocks that array is max(A + b, 0) W, bias, rectifier and product taken over the
  whole array at once.

  Reason: the bias-and-rectifier layer and the product both act on each row by itself.
    entry (p, q) of H_t W           = Σ_k max(A_t(p, k) + b(0, k), 0) · W(k, q),
    entry (r, q) of max(A + b, 0) W = Σ_k max(A(r, k) + b(0, k), 0) · W(k, q),
  and A_t(p, k) = A(10000 t + p, k). So what block t writes is block t of the whole-array product (flushed_eq); and
  row r lies in block r / 10000, so the five blocks fill the array (the cover inside array_eq). Over the extended reals
  a change of float format is the identity, so the narrowing of the product's two operands changes nothing.
-/
import proofs.«153174_j81338090651993_1_alg».proof.Proof.Gen.KernelIdeal.Frame
import proofs.«153174_j81338090651993_1_alg».proof.Proof.Spec
import proofs.«153174_j81338090651993_1_alg».proof.Proof.LibBlocks
import proofs.«153174_j81338090651993_1_alg».proof.Proof.LibDenseLayer
import Idealize.ShloMosaic.Lib.ValueIdx
import Idealize.ShloMosaic.Lib.Pipeline.Value

noncomputable section

open Idealize.ShloMosaic Idealize.ShloMosaic.TcCoe Idealize.ShloMosaic.ValueIdx Idealize.SL.Sem
open Idealize.ShloMosaic.Pipeline (Dat)
open Cert.KernelIdeal Cert.KernelIdeal.Gen

namespace Cert.KernelIdeal.Region1Proj

/-! ## One entry of the block's arithmetic beside one entry of the whole-array arithmetic -/

/-- Entry (p, q) of max(x0 + x1, 0) x2 on a block x0 of 10000 rows is entry (r, q) of max(a + b, 0) w on the array a
    of 50000 rows, when row p of the block is row r of the array and the bias rows and the matrices are the same:
    both are Σ_k max(· (·, k) + bias (0, k), 0) · matrix (k, q), term by term. -/
theorem pay_entry (x0 : Vec Ideal S10000x96 .f32) (x1 : Vec Ideal S1x96 .f32) (x2 : Vec Ideal S96x40 .f32)
    (a : Vec Ideal S50000x96 .f32) (b : Vec Ideal S1x96 .f32) (w : Vec Ideal S96x40 .f32)
    (p : Fin 10000) (r : Fin 50000) (q : Fin 40)
    (h0 : ∀ k : Fin 96, x0 (ix2 p k) = a (ix2 r k)) (h1 : x1 = b) (h2 : x2 = w) :
    k1_pay2 (F := Ideal) x0 x1 x2 (ix2 p q)
      = Cert.Spec.proj40 (F := Ideal) (Cert.Spec.hidden (F := Ideal) a b) w (ix2 r q) := by
  subst h1 h2
  unfold k1_pay2 k1_pay1 Cert.Spec.proj40 Cert.Spec.hidden
  -- the two products agree entry by entry once their left operands agree along row p / row r;
  -- the left operands are the bias-and-rectifier layer on the block and on the array
  exact Cert.LibDenseLayer.product_entry dot_S10000x96_S96x40_S10000x40_1_0_0_1_n_n rfl
    Cert.ReferenceIdeal.dot_S50000x96_S96x40_S50000x40_1_0_0_1_n_n rfl Gen.bitsLt_bf16_f32 _ _ x2 p r
    (fun k => Cert.LibBlocks.biasRelu_apply Gen.shapeCasts_S10000x96_S10000x96 Gen.shapeCasts_S1x96_S1x96
      Gen.broadcasts_S1x96_S10000x96 Cert.ReferenceIdeal.Gen.bcast_S1x96_S50000x96_0_1
      Cert.ReferenceIdeal.Gen.bcast_S_S50000x96 x0 x1 a x1 p r k (h0 k) rfl) q

/-! ## Where each block sits in its array -/

/-- Zero offsets on two axes, as the constant function. -/
theorem hz : (![0, 0] : Fin 2 → Nat) = fun _ => 0 := Cert.LibBlocks.off2_zero

/-- The block indices over the five points: the feature array and the output move down the rows with the point
    (block index (t, 0)); the bias row and the matrix stay put (block index (0, 0)). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_7.index t (0 : Fin 2) = t.val ∧ win1_7.index t (1 : Fin 2) = 0 :=
  (by decide +kernel : ∀ t : Fin grid1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_7.index t (0 : Fin 2) = t.val ∧ win1_7.index t (1 : Fin 2) = 0)

variable (V : (c : Dev nD) → (b : Ref sig .tc) → Buf (Elt Ideal) ((c : Thread nD τ).loc b))

/-- Entry (p, k) of the feature block at point t is entry (10000 t + p, k) of the feature array: the block's rows
    start at row (block index) × 10000, its columns at column 0. -/
theorem iblk0_apply (c : Dev nD) (t : Fin cfg1.N) (p : Fin 10000) (k : Fin 96) (r : Fin 50000)
    (hr : r.val = t.val * 10000 + p.val) :
    (iblk1 (F := Ideal) V c 0 t : Vec Ideal S10000x96 .f32) (ix2 p k)
      = (V c main_v43 : Vec Ideal S50000x96 .f32) (ix2 r k) := by
  obtain ⟨e0, e1, -⟩ := idx_facts t
  unfold iblk1
  rw [View.read_apply]
  show V c main_v43 _ = V c main_v43 _
  congr 1
  funext a
  apply Fin.ext
  match a with
  | ⟨0, _⟩ => show win1_0.index t 0 * 10000 + 1 * p.val = r.val; rw [e0, hr]; omega
  | ⟨1, _⟩ => show win1_0.index t 1 * 96 + 1 * k.val = k.val; rw [e1]; omega

/-- The bias row's block at every point is the whole 1 x 96 row. -/
theorem iblk1_eq (c : Dev nD) (t : Fin cfg1.N) :
    (iblk1 (F := Ideal) V c 1 t : Vec Ideal S1x96 .f32) = (V c main_v44 : Vec Ideal S1x96 .f32) := by
  obtain ⟨-, -, e0, e1, -⟩ := idx_facts t
  funext j
  unfold iblk1
  rw [View.read_apply]
  show V c main_v44 _ = V c main_v44 j
  congr 1
  funext a
  apply Fin.ext
  match a with
  | ⟨0, _⟩ => show win1_1.index t 0 * 1 + 1 * (j 0).val = (j 0).val; rw [e0]; omega
  | ⟨1, _⟩ => show win1_1.index t 1 * 96 + 1 * (j 1).val = (j 1).val; rw [e1]; omega

/-- The matrix's block at every point is the whole 96 x 40 matrix. -/
theorem iblk2_eq (c : Dev nD) (t : Fin cfg1.N) :
    (iblk1 (F := Ideal) V c 2 t : Vec Ideal S96x40 .f32) = (V c main_arg4 : Vec Ideal S96x40 .f32) := by
  obtain ⟨-, -, -, -, e0, e1, -⟩ := idx_facts t
  funext j
  unfold iblk1
  rw [View.read_apply]
  show V c main_arg4 _ = V c main_arg4 j
  congr 1
  funext a
  apply Fin.ext
  match a with
  | ⟨0, _⟩ => show win1_2.index t 0 * 96 + 1 * (j 0).val = (j 0).val; rw [e0]; omega
  | ⟨1, _⟩ => show win1_2.index t 1 * 40 + 1 * (j 1).val = (j 1).val; rw [e1]; omega

/-! ## The whole array -/

/-- max(A + b, 0) W over the whole array: A the aggregated features, b the bias row, W the 96 x 40 matrix, as the
    region finds them. -/
abbrev G (c : Dev nD) : Vec Ideal S50000x40 .f32 :=
  Cert.Spec.proj40 (F := Ideal) (Cert.Spec.hidden (F := Ideal) (V c main_v43) (V c main_v44)) (V c main_arg4)

/-- What point t writes back is block t of G: the body stores max(A_t + b, 0) W over its whole 10000 x 40 buffer;
    its entry (p, q) is G's entry (10000 t + p, q) (pay_entry, row p of A_t being row 10000 t + p of A), and that
    is where entry (p, q) of the output's block t sits. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S10000x96) hz, View.ld_unit_zero (S := S1x96) hz, View.ld_unit_zero (S := S96x40) hz]
  funext j
  obtain ⟨p, q, rfl⟩ : ∃ (p : Fin 10000) (q : Fin 40), j = ix2 p q := ⟨j 0, j 1, eq_ix2 j⟩
  obtain ⟨-, -, -, -, -, -, e0, e1⟩ := idx_facts t
  have ht : t.val < 5 := Nat.lt_of_lt_of_eq t.isLt (show cfg1.N = 5 from N_1)
  have hr : t.val * 10000 + p.val < 50000 := by have := p.isLt; omega
  refine (pay_entry (iblk1 V c 0 t) (iblk1 V c 1 t) (iblk1 V c 2 t) (V c main_v43) (V c main_v44) (V c main_arg4)
    p ⟨t.val * 10000 + p.val, hr⟩ q (fun k => iblk0_apply V c t p k _ rfl) (iblk1_eq V c t) (iblk2_eq V c t)).trans ?_
  rw [View.read_apply]
  show G V c _ = G V c _
  congr 1
  funext a
  apply Fin.ext
  match a with
  | ⟨0, _⟩ => show t.val * 10000 + p.val = win1_7.index t 0 * 10000 + 1 * p.val; rw [e0]; omega
  | ⟨1, _⟩ => show q.val = win1_7.index t 1 * 40 + 1 * q.val; rw [e1]; omega

/-- After the five points the output array is max(A + b, 0) W: each point writes its block of it (flushed_eq), and
    entry (r, q) lies in the block of point r / 10000, whose rows are 10000 (r / 10000) … 10000 (r / 10000) + 9999
    and whose columns are all 40. -/
theorem array_eq (c : Dev nD) :
    (dat1 (F := Ideal) V c).arrAt 7 cfg1.N
      = Cert.Spec.proj40 (F := Ideal) (Cert.Spec.hidden (F := Ideal) (V c main_v43) (V c main_v44)) (V c main_arg4) :=
  (dat1 (F := Ideal) V c).arrAt_eq_of_cover 7 (G V c) (fun t _ => flushed_eq V c t) fun i => by
    have h0 : (i 0 : Nat) < 5 * 10000 := (i 0).isLt
    have hq : (i 1 : Nat) < 40 := (i 1).isLt
    obtain ⟨hlt, hlo, hhi⟩ := Cert.LibBlocks.row_in_block (nb := 5) (bs := 10000) (r := (i 0 : Nat)) (by decide) h0
    have hN : (i 0 : Nat) / 10000 < cfg1.N := Nat.lt_of_lt_of_eq hlt (show cfg1.N = 5 from N_1).symm
    obtain ⟨-, -, -, -, -, -, e0, e1⟩ := idx_facts ⟨(i 0 : Nat) / 10000, hN⟩
    refine ⟨⟨(i 0 : Nat) / 10000, hN⟩, flush1_7 _, ?_⟩
    show i ∈ ((View.whole main_v47_0).slice (win1_7.rect ⟨(i 0 : Nat) / 10000, hN⟩)).set
    rw [View.set_slice_whole, Rect.mem_set_unit]
    intro a
    match a with
    | ⟨0, _⟩ =>
      show win1_7.index ⟨(i 0 : Nat) / 10000, hN⟩ 0 * 10000 ≤ (i 0 : Nat) ∧ (i 0 : Nat) < win1_7.index ⟨(i 0 : Nat) / 10000, hN⟩ 0 * 10000 + 10000
      rw [e0]; exact ⟨hlo, hhi⟩
    | ⟨1, _⟩ =>
      show win1_7.index ⟨(i 0 : Nat) / 10000, hN⟩ 1 * 40 ≤ (i 1 : Nat) ∧ (i 1 : Nat) < win1_7.index ⟨(i 0 : Nat) / 10000, hN⟩ 1 * 40 + 40
      rw [e1]; omega

end Cert.KernelIdeal.Region1Proj

end
-- ==== Proof.LibColumn.lean ====
/-
  A column kept beside a matrix. A vector of a entries reshaped to an a x 1 column holds entry p at (p, 0): the
  column's row-major position p * 1 + 0 is the vector's index p. An a x 1 column broadcast to a x b repeats each
  row's one entry along the row: entry (p, c) of the result is entry (p, 0) of the column, since the column's
  second axis has length one and its first axis is carried over unchanged.
-/
import Idealize.ShloMosaic.Lib.Pipeline.Value
import Idealize.ShloMosaic.Lib.ValueIdx

namespace Cert.Proof.Column

open Idealize.ShloMosaic Idealize.ShloMosaic.ValueIdx

variable {α : Type}

/-- A vector of `a` entries as an `a x 1` column reads, at `(p, u)`, entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a x 1` column broadcast to `a x b` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Column
-- ==== Proof.Region1Prob.lean ====
/-
  THE PROBABILITY COLUMN AND THE MASK COLUMN THAT THE HEAD REGION LEAVES, AS THE SPECIFICATION'S VECTORS.

  The head region works the 50000 rows of the aggregated features a in five blocks of 10000 rows; point t holds rows
  10000 t … 10000 t + 9999. On its block x the body forms, with every product taken into a zero accumulator and
  every change of float format the identity on the extended reals,

      hid = max(x + b1, 0),   mid = max(hid Wm1 + bm1, 0),   s = mid Wm2 + bm2   (one column),
      p = logistic(s),        m = p + ([p > 1/2] - p),

  and writes p and m back to block t of two [50000, 1] columns. Bias rows and weights are the same whole arrays at
  every point. Each stage acts on every row by itself: entry (i, q) of a stage on the block depends only on row i of
  the block. So if row i of the block is row r of a, entry (i, q) of the stage on the block is entry (r, q) of the
  same stage on the whole arrays. Hence point t writes block t of the column logistic(scoreCol (hidden a b1) …), the
  five blocks tile the column (row r lies in block r / 10000), and the column after the region is that function of
  the arrays; likewise for the mask.

  Read as vectors of 50000 (entry r of the vector is entry (r, 0) of the column: the row-major positions agree), the
  columns are the specification's vectors:
    * probVec s at r is 1 / (1 + exp(-s(r, 0))), which over the extended reals is the very expression logistic
      unfolds to; the constant pattern 0x3F800000 denotes 1;
    * maskVec p at r is p(r) + ([p(r) > 1/2] - p(r)); the body widens the comparison's bit to 32 bits and converts
      it as a signed integer, the specification converts the bit as an unsigned one: both give 0 or 1.
-/
import proofs.«153174_j81338090651993_1_alg».proof.Proof.Gen.KernelIdeal.Frame
import proofs.«153174_j81338090651993_1_alg».proof.Proof.Spec
import proofs.«153174_j81338090651993_1_alg».proof.Proof.LibBlocks
import proofs.«153174_j81338090651993_1_alg».proof.Proof.LibDenseLayer
import proofs.«153174_j81338090651993_1_alg».proof.Proof.LibColumn
import Idealize.ShloMosaic.Lib.Pipeline.Value
import Idealize.ShloMosaic.Lib.ValueIdx
import Idealize.ShloMosaic.PureOps.Ideal

noncomputable section

open Idealize.ShloMosaic Idealize.ShloMosaic.TcCoe Idealize.ShloMosaic.ValueIdx Idealize.SL.Sem
open Idealize.ShloMosaic.Pipeline (Dat)
open Cert.KernelIdeal Cert.KernelIdeal.Gen

namespace Cert.KernelIdeal.Region1Prob

/-! ## The body of a block, in named stages -/

/-- Hidden features of a block of rows: max(block + bias row, 0). -/
def hidB (x0 : Vec Ideal S10000x96 .f32) (x1 : Vec Ideal S1x96 .f32) : FVec Ideal S10000x96 .f32 :=
  maximumf (addf (shapeCast S10000x96 x0 shapeCasts_S10000x96_S10000x96)
      (broadcastTo S10000x96 (shapeCast S1x96 x1 shapeCasts_S1x96_S1x96) broadcasts_S1x96_S10000x96))
    (broadcast S10000x96 (Scalar.ofBits (F := Ideal) .f32 0x00000000#32))

/-- First layer of the head on a block: max(hidden · Wm1 + bm1, 0). -/
def midB (x0 : Vec Ideal S10000x96 .f32) (x1 : Vec Ideal S1x96 .f32) (x3 : Vec Ideal S96x64 .f32)
    (x4 : Vec Ideal S1x64 .f32) : FVec Ideal S10000x64 .f32 :=
  maximumf (addf (matmul dot_S10000x96_S96x64_S10000x64_1_0_0_1_n_n none (truncf .bf16 (hidB x0 x1) bitsLt_bf16_f32)
        (truncf .bf16 x3 bitsLt_bf16_f32) (constant S10000x64 .f32 0x00000000#32))
      (broadcastTo S10000x64 (shapeCast S1x64 x4 shapeCasts_S1x64_S1x64) broadcasts_S1x64_S10000x64))
    (broadcast S10000x64 (Scalar.ofBits (F := Ideal) .f32 0x00000000#32))

/-- Second layer of the head on a block: the score column mid · Wm2 + bm2. -/
def scoreB (x0 : Vec Ideal S10000x96 .f32) (x1 : Vec Ideal S1x96 .f32) (x3 : Vec Ideal S96x64 .f32)
    (x4 : Vec Ideal S1x64 .f32) (x5 : Vec Ideal S64x1 .f32) (x6 : Vec Ideal S1x1 .f32) : FVec Ideal S10000x1 .f32 :=
  addf (matmul dot_S10000x64_S64x1_S10000x1_1_0_0_1_n_n none (truncf .bf16 (midB x0 x1 x3 x4) bitsLt_bf16_f32)
      (truncf .bf16 x5 bitsLt_bf16_f32) (constant S10000x1 .f32 0x00000000#32))
    (broadcastTo S10000x1 (shapeCast S1x1 x6 shapeCasts_S1x1_S1x1) broadcasts_S1x1_S10000x1)

/-- The probability payload is the logistic function of the block's score column. -/
theorem pay3_eq (x0 : Vec Ideal S10000x96 .f32) (x1 : Vec Ideal S1x96 .f32) (x3 : Vec Ideal S96x64 .f32)
    (x4 : Vec Ideal S1x64 .f32) (x5 : Vec Ideal S64x1 .f32) (x6 : Vec Ideal S1x1 .f32) :
    k1_pay3 x0 x1 x3 x4 x5 x6 = logistic (scoreB x0 x1 x3 x4 x5 x6) := rfl

/-! ## One entry of a block beside the same entry of the whole arrays -/

/-- Entry (p, k) of the block's hidden features is entry (r, k) of the hidden features of the whole array, when the
    block's row p is the array's row r. -/
theorem hidB_entry (x0 : Vec Ideal S10000x96 .f32) (x1 : Vec Ideal S1x96 .f32)
    (A : Vec Ideal S50000x96 .f32) (p : Fin 10000) (r : Fin 50000)
    (h0 : ∀ k : Fin 96, x0 (ix2 p k) = A (ix2 r k)) (k : Fin 96) :
    hidB x0 x1 (ix2 p k) = Cert.Spec.hidden (F := Ideal) A x1 (ix2 r k) := by
  unfold hidB Cert.Spec.hidden
  exact Cert.LibBlocks.biasRelu_apply _ _ _ _ _ x0 x1 A x1 p r k (h0 k) rfl

/-- Entry (p, q) of the block's score column is entry (r, q) of the score column of the whole arrays, when the
    block's row p is the array's row r: the two dense layers chained, the first layer's rows feeding the second. -/
theorem scoreB_entry (x0 : Vec Ideal S10000x96 .f32) (x1 : Vec Ideal S1x96 .f32) (x3 : Vec Ideal S96x64 .f32)
    (x4 : Vec Ideal S1x64 .f32) (x5 : Vec Ideal S64x1 .f32) (x6 : Vec Ideal S1x1 .f32)
    (A : Vec Ideal S50000x96 .f32) (p : Fin 10000) (r : Fin 50000)
    (h0 : ∀ k : Fin 96, x0 (ix2 p k) = A (ix2 r k)) (q : Fin 1) :
    scoreB x0 x1 x3 x4 x5 x6 (ix2 p q)
      = Cert.Spec.scoreCol (F := Ideal) (Cert.Spec.hidden (F := Ideal) A x1) x3 x4 x5 x6 (ix2 r q) := by
  unfold scoreB Cert.Spec.scoreCol
  refine Cert.LibDenseLayer.out_entry _ rfl _ rfl _ _ _ _ (midB x0 x1 x3 x4) _ x5 x6 p r (fun k => ?_) q
  unfold midB
  exact Cert.LibDenseLayer.hidden_entry _ rfl _ rfl _ _ _ _ _ (hidB x0 x1) (Cert.Spec.hidden (F := Ideal) A x1) x3 x4 p r
    (hidB_entry x0 x1 A p r h0) k

/-! ## The windows' blocks as pieces of their arrays -/

variable (V : (c : Dev nD) → (b : Ref sig .tc) → Buf (Elt Ideal) ((c : Thread nD τ).loc b))

/-- The zero offsets of a two-axis block, as the constant function. -/
theorem hz : (![0, 0] : Fin 2 → Nat) = fun _ => 0 := Cert.LibBlocks.off2_zero

/-- The block indices, checked at each of the five grid points: the row windows sit at block (t, 0), the weight and bias
    windows at block (0, 0). -/
theorem idx_facts : ∀ t : Fin cfg1.N,
    (win1_0.index t (0 : Fin 2) = t.val ∧ win1_0.index t (1 : Fin 2) = 0)
    ∧ (win1_8.index t (0 : Fin 2) = t.val ∧ win1_8.index t (1 : Fin 2) = 0)
    ∧ (win1_9.index t (0 : Fin 2) = t.val ∧ win1_9.index t (1 : Fin 2) = 0)
    ∧ (win1_1.index t (0 : Fin 2) = 0 ∧ win1_1.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- Entry (p, k) of the feature window's block at point t is entry (10000 t + p, k) of the feature array. -/
theorem iblk_0_apply (c : Dev nD) (t : Fin cfg1.N) (p : Fin 10000) (k : Fin 96) (r : Fin 50000)
    (hr : r.val = t.val * 10000 + p.val) :
    (iblk1 (F := Ideal) V c 0 t : Vec Ideal S10000x96 .f32) (ix2 p k) = (V c main_v43 : Vec Ideal S50000x96 .f32) (ix2 r k) := by
  obtain ⟨⟨e0, e1⟩, -⟩ := idx_facts t
  unfold iblk1
  rw [View.read_apply]
  show V c main_v43 _ = V c main_v43 _
  congr 1
  funext a
  apply Fin.ext
  match a with
  | ⟨0, _⟩ => show win1_0.index t 0 * 10000 + 1 * p.val = r.val; rw [e0, hr]; omega
  | ⟨1, _⟩ => show win1_0.index t 1 * 96 + 1 * k.val = k.val; rw [e1]; omega

/-- The hidden layer's bias row: the whole array at every point (its block index is (0, 0) and its block is the array). -/
theorem iblk_1 (c : Dev nD) (t : Fin cfg1.N) : (iblk1 (F := Ideal) V c 1 t : Vec Ideal S1x96 .f32) = V c main_v44 := by
  obtain ⟨-, -, -, ⟨e0, e1⟩, -⟩ := idx_facts t
  funext j
  unfold iblk1
  rw [View.read_apply]
  show V c main_v44 _ = V c main_v44 _
  congr 1
  funext a
  apply Fin.ext
  match a with
  | ⟨0, _⟩ => show win1_1.index t 0 * 1 + 1 * (j 0).val = (j 0).val; rw [e0]; omega
  | ⟨1, _⟩ => show win1_1.index t 1 * 96 + 1 * (j 1).val = (j 1).val; rw [e1]; omega

/-- The first head layer's weights: the whole array at every point. -/
theorem iblk_3 (c : Dev nD) (t : Fin cfg1.N) : (iblk1 (F := Ideal) V c 3 t : Vec Ideal S96x64 .f32) = V c main_arg6 := by
  obtain ⟨-, -, -, -, ⟨e0, e1⟩, -⟩ := idx_facts t
  funext j
  unfold iblk1
  rw [View.read_apply]
  show V c main_arg6 _ = V c main_arg6 _
  congr 1
  funext a
  apply Fin.ext
  match a with
  | ⟨0, _⟩ => show win1_3.index t 0 * 96 + 1 * (j 0).val = (j 0).val; rw [e0]; omega
  | ⟨1, _⟩ => show win1_3.index t 1 * 64 + 1 * (j 1).val = (j 1).val; rw [e1]; omega

/-- The first head layer's bias row: the whole array at every point. -/
theorem iblk_4 (c : Dev nD) (t : Fin cfg1.N) : (iblk1 (F := Ideal) V c 4 t : Vec Ideal S1x64 .f32) = V c main_v45 := by
  obtain ⟨-, -, -, -, -, ⟨e0, e1⟩, -⟩ := idx_facts t
  funext j
  unfold iblk1
  rw [View.read_apply]
  show V c main_v45 _ = V c main_v45 _
  congr 1
  funext a
  apply Fin.ext
  match a with
  | ⟨0, _⟩ => show win1_4.index t 0 * 1 + 1 * (j 0).val = (j 0).val; rw [e0]; omega
  | ⟨1, _⟩ => show win1_4.index t 1 * 64 + 1 * (j 1).val = (j 1).val; rw [e1]; omega

/-- The second head layer's weights: the whole array at every point. -/
theorem iblk_5 (c : Dev nD) (t : Fin cfg1.N) : (iblk1 (F := Ideal) V c 5 t : Vec Ideal S64x1 .f32) = V c main_arg8 := by
  obtain ⟨-, -, -, -, -, -, ⟨e0, e1⟩, -⟩ := idx_facts t
  funext j
  unfold iblk1
  rw [View.read_apply]
  show V c main_arg8 _ = V c main_arg8 _
  congr 1
  funext a
  apply Fin.ext
  match a with
  | ⟨0, _⟩ => show win1_5.index t 0 * 64 + 1 * (j 0).val = (j 0).val; rw [e0]; omega
  | ⟨1, _⟩ => show win1_5.index t 1 * 1 + 1 * (j 1).val = (j 1).val; rw [e1]; omega

/-- The second head layer's bias: the whole array at every point. -/
theorem iblk_6 (c : Dev nD) (t : Fin cfg1.N) : (iblk1 (F := Ideal) V c 6 t : Vec Ideal S1x1 .f32) = V c main_v46 := by
  obtain ⟨-, -, -, -, -, -, -, ⟨e0, e1⟩⟩ := idx_facts t
  funext j
  unfold iblk1
  rw [View.read_apply]
  show V c main_v46 _ = V c main_v46 _
  congr 1
  funext a
  apply Fin.ext
  match a with
  | ⟨0, _⟩ => show win1_6.index t 0 * 1 + 1 * (j 0).val = (j 0).val; rw [e0]; omega
  | ⟨1, _⟩ => show win1_6.index t 1 * 1 + 1 * (j 1).val = (j 1).val; rw [e1]; omega

/-! ## The probability column -/

/-- The score column of the whole arrays: the specification's two-layer head over the hidden features. -/
abbrev scoreA (c : Dev nD) : Vec Ideal S50000x1 .f32 :=
  Cert.Spec.scoreCol (F := Ideal) (Cert.Spec.hidden (F := Ideal) (V c main_v43) (V c main_v44)) (V c main_arg6) (V c main_v45)
    (V c main_arg8) (V c main_v46)

/-- The probability column: the logistic function of the score column, row by row. -/
abbrev probA (c : Dev nD) : FVec Ideal S50000x1 .f32 := logistic (scoreA V c)

/-- Entry (p, q) of the probability payload at the blocks of point t is entry (10000 t + p, q) of the probability
    column: the head acts on each row by itself, and the block's row p is the array's row 10000 t + p. -/
theorem pay3_entry (x0 : Vec Ideal S10000x96 .f32) (x1 : Vec Ideal S1x96 .f32) (x3 : Vec Ideal S96x64 .f32)
    (x4 : Vec Ideal S1x64 .f32) (x5 : Vec Ideal S64x1 .f32) (x6 : Vec Ideal S1x1 .f32)
    (A : Vec Ideal S50000x96 .f32) (B1 : Vec Ideal S1x96 .f32) (W1 : Vec Ideal S96x64 .f32) (C1 : Vec Ideal S1x64 .f32)
    (W2 : Vec Ideal S64x1 .f32) (C2 : Vec Ideal S1x1 .f32)
    (p : Fin 10000) (r : Fin 50000) (h0 : ∀ k : Fin 96, x0 (ix2 p k) = A (ix2 r k))
    (h1 : x1 = B1) (h3 : x3 = W1) (h4 : x4 = C1) (h5 : x5 = W2) (h6 : x6 = C2) (q : Fin 1) :
    k1_pay3 x0 x1 x3 x4 x5 x6 (ix2 p q)
      = logistic (Cert.Spec.scoreCol (F := Ideal) (Cert.Spec.hidden (F := Ideal) A B1) W1 C1 W2 C2) (ix2 r q) := by
  subst h1 h3 h4 h5 h6
  rw [pay3_eq]
  show FloatOps.logistic (scoreB x0 x1 x3 x4 x5 x6 (ix2 p q)) = FloatOps.logistic _
  rw [scoreB_entry x0 x1 x3 x4 x5 x6 A p r h0 q]

/-- What point t writes back through window 8 is block t of the probability column. -/
theorem flushed8_eq (c : Dev nD) (t : Fin cfg1.N) :
    (dat1 (F := Ideal) V c).flushed 8 t = ((cfg1.win 8).blk t).view.read (Elt Ideal) (probA V c) := by
  show (cfg1.win 8).cut (grid1.coords t) ((dat1 V c).after 8 t) = _
  rw [after1_8]
  unfold out1_8
  rw [View.canon_unit_zero hz]
  simp only [View.ld_unit_zero (S := S10000x96) hz, View.ld_unit_zero (S := S1x96) hz, View.ld_unit_zero (S := S96x64) hz,
    View.ld_unit_zero (S := S1x64) hz, View.ld_unit_zero (S := S64x1) hz, View.ld_unit_zero (S := S1x1) hz]
  obtain ⟨-, ⟨e0, e1⟩, -⟩ := idx_facts t
  funext j
  obtain ⟨p, q, rfl⟩ : ∃ (p : Fin 10000) (q : Fin 1), j = ix2 p q := ⟨j 0, j 1, eq_ix2 j⟩
  have ht : t.val < 5 := lt_of_lt_of_eq t.isLt N_1
  have hr : t.val * 10000 + p.val < 50000 := by have := p.isLt; omega
  rw [View.read_apply]
  show k1_pay3 _ _ _ _ _ _ (ix2 p q) = probA V c _
  refine (pay3_entry (iblk1 V c 0 t) (iblk1 V c 1 t) (iblk1 V c 3 t) (iblk1 V c 4 t) (iblk1 V c 5 t) (iblk1 V c 6 t)
    (V c main_v43) (V c main_v44) (V c main_arg6) (V c main_v45) (V c main_arg8) (V c main_v46) p ⟨t.val * 10000 + p.val, hr⟩
    (fun k => iblk_0_apply V c t p k _ rfl) (iblk_1 V c t) (iblk_3 V c t) (iblk_4 V c t) (iblk_5 V c t) (iblk_6 V c t) q).trans ?_
  show probA V c _ = probA V c _
  congr 1
  funext a
  apply Fin.ext
  match a with
  | ⟨0, _⟩ => show t.val * 10000 + p.val = win1_8.index t 0 * 10000 + 1 * p.val; rw [e0]; omega
  | ⟨1, _⟩ => show q.val = win1_8.index t 1 * 1 + 1 * q.val; rw [e1]; omega

/-- An index of the column is in point t's block of window 8 exactly when each coordinate is in the block's range. -/
theorem mem_blk8 (t : Fin cfg1.N) (i : S50000x1.Idx) :
    i ∈ ((cfg1.win 8).blk t).view.set ↔ ∀ a : Fin 2, win1_8.index t a * S10000x1.size a ≤ (i a).val
      ∧ (i a).val < win1_8.index t a * S10000x1.size a + S10000x1.size a := by
  show i ∈ ((View.whole main_v47_1).slice (win1_8.rect t)).set ↔ _
  rw [View.set_slice_whole, Rect.mem_set_unit]
  exact Iff.rfl

/-- Row r of the column lies in the block of point r / 10000. -/
theorem cover8 (i : S50000x1.Idx) :
    ∃ t : Fin cfg1.N, (cfg1.win 8).flush t = true ∧ i ∈ ((cfg1.win 8).blk t).view.set := by
  have hi0 : (i 0).val < 50000 := (i 0).isLt
  have hi1 : (i 1).val < 1 := (i 1).isLt
  have hlt : (i 0).val / 10000 < cfg1.N := lt_of_lt_of_eq (show (i 0).val / 10000 < 5 by omega) N_1.symm
  refine ⟨⟨(i 0).val / 10000, hlt⟩, flush1_8 _, ?_⟩
  rw [mem_blk8]
  obtain ⟨-, ⟨e0, e1⟩, -⟩ := idx_facts ⟨(i 0).val / 10000, hlt⟩
  intro a
  match a with
  | ⟨0, _⟩ =>
    show win1_8.index ⟨(i 0).val / 10000, hlt⟩ 0 * 10000 ≤ (i 0).val
      ∧ (i 0).val < win1_8.index ⟨(i 0).val / 10000, hlt⟩ 0 * 10000 + 10000
    rw [e0]; dsimp only; omega
  | ⟨1, _⟩ =>
    show win1_8.index ⟨(i 0).val / 10000, hlt⟩ 1 * 1 ≤ (i 1).val
      ∧ (i 1).val < win1_8.index ⟨(i 0).val / 10000, hlt⟩ 1 * 1 + 1
    rw [e1]; omega

/-- After the region, window 8's array is the probability column. -/
theorem arr8_eq (c : Dev nD) : (dat1 (F := Ideal) V c).arrAt 8 cfg1.N = probA V c :=
  (dat1 (F := Ideal) V c).arrAt_eq_of_cover 8 (probA V c) (fun t _ => flushed8_eq V c t) cover8

/-! ## The specification's vectors at one entry -/

/-- The single-precision pattern 0x3F800000 denotes 1. -/
theorem ofBits_one : Ideal.ofBits .f32 0x3F800000#32 = 1 := by
  simp [Ideal.ofBits, Ideal.ieee, -EReal.coe_mul]; norm_num

/-- A column of a rows read as a vector holds, at r, the column's entry (r, 0): the two row-major positions agree. -/
theorem col_as_vec_apply {α : Type} (g : S50000x1.Idx → α) (h : S50000x1.ShapeCasts S50000) (r : Fin 50000) :
    shapeCast S50000 g h (ix1 r) = g (ix2 r (0 : Fin 1)) :=
  shapeCast_apply g h (ix1 r) (ix2 r (0 : Fin 1)) (by
    rw [Shape.rowMajor_val_two, Shape.rowMajor_val_one]
    show r.val * 1 + 0 = r.val
    omega)

/-- A scalar constant spread over a vector is that constant at every entry. -/
theorem scalar_bcast_apply (b : BitVec 32) (h : S_.BroadcastsInDim S50000 ![]) (r : Fin 50000) :
    broadcastInDim S50000 ![] h (constant (F := Ideal) S_ .f32 b) (ix1 r) = Ideal.ofBits .f32 b :=
  broadcastInDim_apply ![] h (constant (F := Ideal) S_ .f32 b) (ix1 r) ix0 (fun a => a.elim0)

/-- The specification's probability vector at r: the logistic function of the score column's entry (r, 0).
    The host's 1 / (1 + exp(-s)) and the logistic function are one expression over the extended reals. -/
theorem probVec_apply (s : Vec Ideal S50000x1 .f32) (r : Fin 50000) :
    (Cert.Spec.probVec (F := Ideal) s : FVec Ideal S50000 .f32) (ix1 r)
      = FloatOps.logistic (F := Ideal) (φ := .f32) (s (ix2 r (0 : Fin 1))) := by
  unfold Cert.Spec.probVec
  show FloatOps.hostDivf (broadcastInDim S50000 ![] _ (constant (F := Ideal) S_ .f32 0x3F800000#32) (ix1 r))
      (FloatOps.addf (broadcastInDim S50000 ![] _ (constant (F := Ideal) S_ .f32 0x3F800000#32) (ix1 r))
        (FloatOps.hostUnary .exp (FloatOps.hostNegf (shapeCast S50000 s _ (ix1 r))))) = _
  rw [scalar_bcast_apply, col_as_vec_apply, ofBits_one]
  rfl

/-- A one-bit integer widened to 32 bits and read signed is the bit read unsigned: 0 or 1 either way. -/
theorem step_cast (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : Int) := by revert b; decide
  rw [h, Int.cast_natCast]

/-- The specification's mask vector at r, from the probability vector's entry there. -/
theorem maskVec_apply (pv : FVec Ideal S50000 .f32) (r : Fin 50000) :
    (Cert.Spec.maskVec (F := Ideal) pv : FVec Ideal S50000 .f32) (ix1 r)
      = (pv (ix1 r) : Ideal .f32) + (FloatOps.uitofp (F := Ideal) .f32 (FloatOps.cmpf .ogt (pv (ix1 r)) (Ideal.ofBits .f32 0x3F000000#32)) - pv (ix1 r)) := by
  unfold Cert.Spec.maskVec
  show pv (ix1 r) + (FloatOps.uitofp (F := Ideal) .f32 (FloatOps.cmpf .ogt (pv (ix1 r))
      (broadcastInDim S50000 ![] _ (constant (F := Ideal) S_ .f32 0x3F000000#32) (ix1 r))) - pv (ix1 r)) = _
  rw [scalar_bcast_apply]

/-- The region's second result, read as a vector, is the specification's probability vector. -/
theorem prob_eq (c : Dev nD) :
    shapeCast Cert.KernelIdeal.S50000 ((dat1 (F := Ideal) V c).arrAt 8 cfg1.N) Cert.KernelIdeal.Gen.shapeCasts_S50000x1_S50000
      = Cert.Spec.probVec (F := Ideal) (Cert.Spec.scoreCol (F := Ideal)
          (Cert.Spec.hidden (F := Ideal) (V c main_v43) (V c main_v44)) (V c main_arg6) (V c main_v45) (V c main_arg8) (V c main_v46)) := by
  rw [arr8_eq]
  funext i
  obtain ⟨r, rfl⟩ : ∃ r : Fin 50000, i = ix1 r := ⟨i 0, eq_ix1 i⟩
  rw [col_as_vec_apply]
  exact (probVec_apply _ r).symm

/-! ## The mask column -/

/-- The mask column: p + ([p > 1/2] - p) of the probability column, row by row. -/
abbrev maskA (c : Dev nD) : FVec Ideal S50000x1 .f32 := fun i =>
  probA V c i + (FloatOps.uitofp (F := Ideal) .f32 (FloatOps.cmpf .ogt (probA V c i) (Ideal.ofBits .f32 0x3F000000#32)) - probA V c i)

/-- The mask payload at an entry, from the probability payload's value g there: g + ([g > 1/2] - g). The body
    widens the comparison's bit to 32 bits and converts it signed; the specification converts the bit unsigned. -/
theorem pay4_entry (x0 : Vec Ideal S10000x96 .f32) (x1 : Vec Ideal S1x96 .f32) (x3 : Vec Ideal S96x64 .f32)
    (x4 : Vec Ideal S1x64 .f32) (x5 : Vec Ideal S64x1 .f32) (x6 : Vec Ideal S1x1 .f32) (g : Ideal .f32)
    (p : Fin 10000) (q : Fin 1) (h : k1_pay3 x0 x1 x3 x4 x5 x6 (ix2 p q) = g) :
    k1_pay4 x0 x1 x3 x4 x5 x6 (ix2 p q)
      = g + (FloatOps.uitofp (F := Ideal) .f32 (FloatOps.cmpf .ogt g (Ideal.ofBits .f32 0x3F000000#32)) - g) := by
  subst h
  show k1_pay3 x0 x1 x3 x4 x5 x6 (ix2 p q)
      + (FloatOps.sitofp (F := Ideal) .f32 ((FloatOps.cmpf .ogt (k1_pay3 x0 x1 x3 x4 x5 x6 (ix2 p q))
          (Ideal.ofBits .f32 0x3F000000#32)).setWidth 32) - k1_pay3 x0 x1 x3 x4 x5 x6 (ix2 p q)) = _
  rw [step_cast]

/-- What point t writes back through window 9 is block t of the mask column. -/
theorem flushed9_eq (c : Dev nD) (t : Fin cfg1.N) :
    (dat1 (F := Ideal) V c).flushed 9 t = ((cfg1.win 9).blk t).view.read (Elt Ideal) (maskA V c) := by
  show (cfg1.win 9).cut (grid1.coords t) ((dat1 V c).after 9 t) = _
  rw [after1_9]
  unfold out1_9
  rw [View.canon_unit_zero hz]
  simp only [View.ld_unit_zero (S := S10000x96) hz, View.ld_unit_zero (S := S1x96) hz, View.ld_unit_zero (S := S96x64) hz,
    View.ld_unit_zero (S := S1x64) hz, View.ld_unit_zero (S := S64x1) hz, View.ld_unit_zero (S := S1x1) hz]
  obtain ⟨-, -, ⟨e0, e1⟩, -⟩ := idx_facts t
  funext j
  obtain ⟨p, q, rfl⟩ : ∃ (p : Fin 10000) (q : Fin 1), j = ix2 p q := ⟨j 0, j 1, eq_ix2 j⟩
  have ht : t.val < 5 := lt_of_lt_of_eq t.isLt N_1
  have hr : t.val * 10000 + p.val < 50000 := by have := p.isLt; omega
  rw [View.read_apply]
  show k1_pay4 _ _ _ _ _ _ (ix2 p q) = maskA V c _
  refine (pay4_entry (iblk1 V c 0 t) (iblk1 V c 1 t) (iblk1 V c 3 t) (iblk1 V c 4 t) (iblk1 V c 5 t) (iblk1 V c 6 t)
    (probA V c (ix2 ⟨t.val * 10000 + p.val, hr⟩ q)) p q
    (pay3_entry (iblk1 V c 0 t) (iblk1 V c 1 t) (iblk1 V c 3 t) (iblk1 V c 4 t) (iblk1 V c 5 t) (iblk1 V c 6 t)
      (V c main_v43) (V c main_v44) (V c main_arg6) (V c main_v45) (V c main_arg8) (V c main_v46) p ⟨t.val * 10000 + p.val, hr⟩
      (fun k => iblk_0_apply V c t p k _ rfl) (iblk_1 V c t) (iblk_3 V c t) (iblk_4 V c t) (iblk_5 V c t) (iblk_6 V c t) q)).trans ?_
  show maskA V c (ix2 ⟨t.val * 10000 + p.val, hr⟩ q) = maskA V c _
  congr 1
  funext a
  apply Fin.ext
  match a with
  | ⟨0, _⟩ => show t.val * 10000 + p.val = win1_9.index t 0 * 10000 + 1 * p.val; rw [e0]; omega
  | ⟨1, _⟩ => show q.val = win1_9.index t 1 * 1 + 1 * q.val; rw [e1]; omega

/-- An index of the column is in point t's block of window 9 exactly when each coordinate is in the block's range. -/
theorem mem_blk9 (t : Fin cfg1.N) (i : S50000x1.Idx) :
    i ∈ ((cfg1.win 9).blk t).view.set ↔ ∀ a : Fin 2, win1_9.index t a * S10000x1.size a ≤ (i a).val
      ∧ (i a).val < win1_9.index t a * S10000x1.size a + S10000x1.size a := by
  show i ∈ ((View.whole main_v47_2).slice (win1_9.rect t)).set ↔ _
  rw [View.set_slice_whole, Rect.mem_set_unit]
  exact Iff.rfl

/-- Row r of the column lies in the block of point r / 10000. -/
theorem cover9 (i : S50000x1.Idx) :
    ∃ t : Fin cfg1.N, (cfg1.win 9).flush t = true ∧ i ∈ ((cfg1.win 9).blk t).view.set := by
  have hi0 : (i 0).val < 50000 := (i 0).isLt
  have hi1 : (i 1).val < 1 := (i 1).isLt
  have hlt : (i 0).val / 10000 < cfg1.N := lt_of_lt_of_eq (show (i 0).val / 10000 < 5 by omega) N_1.symm
  refine ⟨⟨(i 0).val / 10000, hlt⟩, flush1_9 _, ?_⟩
  rw [mem_blk9]
  obtain ⟨-, -, ⟨e0, e1⟩, -⟩ := idx_facts ⟨(i 0).val / 10000, hlt⟩
  intro a
  match a with
  | ⟨0, _⟩ =>
    show win1_9.index ⟨(i 0).val / 10000, hlt⟩ 0 * 10000 ≤ (i 0).val
      ∧ (i 0).val < win1_9.index ⟨(i 0).val / 10000, hlt⟩ 0 * 10000 + 10000
    rw [e0]; dsimp only; omega
  | ⟨1, _⟩ =>
    show win1_9.index ⟨(i 0).val / 10000, hlt⟩ 1 * 1 ≤ (i 1).val
      ∧ (i 1).val < win1_9.index ⟨(i 0).val / 10000, hlt⟩ 1 * 1 + 1
    rw [e1]; omega

/-- After the region, window 9's array is the mask column. -/
theorem arr9_eq (c : Dev nD) : (dat1 (F := Ideal) V c).arrAt 9 cfg1.N = maskA V c :=
  (dat1 (F := Ideal) V c).arrAt_eq_of_cover 9 (maskA V c) (fun t _ => flushed9_eq V c t) cover9

/-- The region's third result, read as a vector, is the specification's mask vector of its probability vector. -/
theorem mask_eq (c : Dev nD) :
    shapeCast Cert.KernelIdeal.S50000 ((dat1 (F := Ideal) V c).arrAt 9 cfg1.N) Cert.KernelIdeal.Gen.shapeCasts_S50000x1_S50000
      = Cert.Spec.maskVec (F := Ideal) (Cert.Spec.probVec (F := Ideal) (Cert.Spec.scoreCol (F := Ideal)
          (Cert.Spec.hidden (F := Ideal) (V c main_v43) (V c main_v44)) (V c main_arg6) (V c main_v45) (V c main_arg8) (V c main_v46))) := by
  rw [arr9_eq]
  funext i
  obtain ⟨r, rfl⟩ : ∃ r : Fin 50000, i = ix1 r := ⟨i 0, eq_ix1 i⟩
  rw [col_as_vec_apply]
  refine Eq.trans ?_ (maskVec_apply _ r).symm
  rw [probVec_apply]
  rfl

end Cert.KernelIdeal.Region1Prob

end
-- ==== Proof.LibLaneSum.lean ====
/-
  A lane sum over one axis, and the small layout changes around it, read at coordinates, at the ideal values.

  At the ideal values a float sum over one axis of an array is, at each index of the result, the plain sum of the
  entries along that axis (no order, no rounding).  Written with the result's index given by its coordinates: summing
  the last axis of `[A, B, C]` at `(a, b)` is `Σ_c v(a, b, c)`; summing the first at `(b, c)` is `Σ_a v(a, b, c)`; summing
  the second axis of `[A, B]` at `a` is `Σ_b v(a, b)`.  An array `[A, 1, B, C]` viewed as `[A, B, C]` has the same entries,
  and extracting position `[0, 0]` of a `[1, 1]` array reads its one entry.  All extents are arbitrary.
-/
import Idealize.ShloMosaic.PureOps.Ideal.Laws
import Idealize.ShloMosaic.Lib.Pipeline.Value
import Idealize.ShloMosaic.Lib.ValueIdx

noncomputable section

open scoped BigOperators

namespace Cert.LibLaneSum

open Idealize.ShloMosaic Idealize.ShloMosaic.ValueIdx

/-- The sum over the last axis of `[A, B, C]`, at `(a, b)`. -/
theorem sum_last3 {A B C : Nat} (v : FVec Ideal ⟨3, ![A, B, C]⟩ .f32) (acc : BitVec 32)
    (h : (⟨3, ![A, B, C]⟩ : Shape).Reduces [2] ⟨2, ![A, B]⟩) (hφ : FKind.Formats .f32)
    (hacc : acc = FKind.add.neutral .f32 hφ) (a : Fin A) (b : Fin B) :
    multiReduction .add [2] ⟨2, ![A, B]⟩ v acc h hφ hacc (ix2 a b) = ∑ c : Fin C, v (ix3 a b c) := by
  refine (Ideal.multiReduction_add_single v acc h hφ hacc (ix2 a b)).trans ?_
  exact Finset.sum_congr rfl fun k _ => congrArg v (funext fun d => Fin.ext (by
    match d with | ⟨0, _⟩ => rfl | ⟨1, _⟩ => rfl | ⟨2, _⟩ => rfl))

/-- The sum over the first axis of `[A, B, C]`, at `(b, c)`. -/
theorem sum_first3 {A B C : Nat} (v : FVec Ideal ⟨3, ![A, B, C]⟩ .f32) (acc : BitVec 32)
    (h : (⟨3, ![A, B, C]⟩ : Shape).Reduces [0] ⟨2, ![B, C]⟩) (hφ : FKind.Formats .f32)
    (hacc : acc = FKind.add.neutral .f32 hφ) (b : Fin B) (c : Fin C) :
    multiReduction .add [0] ⟨2, ![B, C]⟩ v acc h hφ hacc (ix2 b c) = ∑ a : Fin A, v (ix3 a b c) := by
  refine (Ideal.multiReduction_add_single v acc h hφ hacc (ix2 b c)).trans ?_
  exact Finset.sum_congr rfl fun k _ => congrArg v (funext fun d => Fin.ext (by
    match d with | ⟨0, _⟩ => rfl | ⟨1, _⟩ => rfl | ⟨2, _⟩ => rfl))

/-- The sum over the second axis of `[A, B]`, at `a`. -/
theorem sum_last2 {A B : Nat} (v : FVec Ideal ⟨2, ![A, B]⟩ .f32) (acc : BitVec 32)
    (h : (⟨2, ![A, B]⟩ : Shape).Reduces [1] ⟨1, ![A]⟩) (hφ : FKind.Formats .f32)
    (hacc : acc = FKind.add.neutral .f32 hφ) (a : Fin A) :
    multiReduction .add [1] ⟨1, ![A]⟩ v acc h hφ hacc (ix1 a) = ∑ b : Fin B, v (ix2 a b) := by
  refine (Ideal.multiReduction_add_single v acc h hφ hacc (ix1 a)).trans ?_
  exact Finset.sum_congr rfl fun k _ => congrArg v (funext fun d => Fin.ext (by
    match d with | ⟨0, _⟩ => rfl | ⟨1, _⟩ => rfl))

/-- `[A, 1, B, C]` viewed as `[A, B, C]`: entry `(a, b, c)` is entry `(a, 0, b, c)`. -/
theorem squeeze_mid {α : Type} {A B C : Nat} (x : (⟨4, ![A, 1, B, C]⟩ : Shape).Idx → α)
    (h : (⟨4, ![A, 1, B, C]⟩ : Shape).ShapeCasts ⟨3, ![A, B, C]⟩) (a : Fin A) (b : Fin B) (c : Fin C) :
    shapeCast ⟨3, ![A, B, C]⟩ x h (ix3 a b c) = x (ix4 a (0 : Fin 1) b c) :=
  shapeCast_apply x h _ _ (by
    rw [Shape.rowMajor_val_four, Shape.rowMajor_val_three]
    show ((a.val * 1 + 0) * B + b.val) * C + c.val = (a.val * B + b.val) * C + c.val
    rw [Nat.mul_one, Nat.add_zero])

/-- Position `[0, 0]` of a `[1, 1]` array, as a vector extract spells it, is its entry `(0, 0)`. -/
theorem extract_00 {α : Type} (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) :=
  congrArg v (funext fun a => Fin.ext (by match a with | ⟨0, _⟩ => rfl | ⟨1, _⟩ => rfl))

end Cert.LibLaneSum

end
-- ==== Proof.LibWindowMax.lean ====
/-
  Maxima over windows, at the extended reals.

  * A left fold of `max` from the bottom element over `List.finRange N` is the supremum over `Fin N`.
  * A host `reduce_window` whose body is `max` and whose initial value is the bottom element, at a result index
    every window position of which lies inside the operand, is the supremum of the operand over the window:
    the window's positions are the indices of the shape `⟨rank, window⟩`, position `w` reading the operand at
    `j · stride + w − lo` on every axis.
  * Two successive one-axis maximum reductions of a rank-3 array from `-∞` (the last axis, then the last axis of
    what is left) read at a row are the supremum over both reduced coordinates.
-/
import Idealize.ShloMosaic.PureOps.Ideal
import Idealize.ShloMosaic.PureOps.Ideal.Laws
import Idealize.ShloMosaic.PureOps.Contract
import Idealize.ShloMosaic.Lib.ValueIdx
import Mathlib.Data.Finset.Lattice.Fold
import Mathlib.Data.Fintype.Basic

noncomputable section

namespace Idealize.ShloMosaic.WindowMax

open Idealize.ShloMosaic Idealize.ShloMosaic.ValueIdx

section Order
variable {α : Type} [LinearOrder α] [OrderBot α]

/-- A left fold of `max` over a list, from `a`: `a` joined with the supremum over the list's elements. -/
theorem foldl_max_eq_sup_toFinset {ι : Type} [DecidableEq ι] (g : ι → α) (l : List ι) (a : α) :
    l.foldl (fun r n => max r (g n)) a = a ⊔ l.toFinset.sup g := by
  induction l generalizing a with
  | nil => simp
  | cons x l ih => rw [List.foldl_cons, ih, List.toFinset_cons, Finset.sup_insert, sup_assoc]

/-- From the bottom element over every `n : Fin N` in order: the supremum over `Fin N`. -/
theorem foldl_max_finRange (N : Nat) (g : Fin N → α) :
    (List.finRange N).foldl (fun r n => max r (g n)) ⊥ = Finset.univ.sup g := by
  rw [foldl_max_eq_sup_toFinset, List.toFinset_finRange, bot_sup_eq]

/-- A supremum over a finite type is unchanged by re-indexing along a bijection. -/
theorem sup_univ_comp_equiv {ι κ : Type} [Fintype ι] [Fintype κ] (e : ι ≃ κ) (g : κ → α) :
    Finset.univ.sup (fun i => g (e i)) = Finset.univ.sup g := by
  apply le_antisymm
  · exact Finset.sup_le fun i _ => Finset.le_sup (f := g) (Finset.mem_univ (e i))
  · refine Finset.sup_le fun k _ => ?_
    have := Finset.le_sup (f := fun i => g (e i)) (Finset.mem_univ (e.symm k))
    simpa using this

/-- **A host `reduce_window` with body `max` from the bottom element, read at a result index** all of whose
    window positions are inside the operand (`hin`): the supremum of the operand over the window. -/
theorem reduceWindow_max_apply {s t u : Shape} (window strides lo hi : Fin s.rank → Nat) (x : s.Idx → α) (init : u.Idx → α)
    (h : s.ReduceWindows window strides lo hi t) (hu : 0 < u.numel) (hinit : init (Shape.Idx.first hu) = ⊥) (j : t.Idx)
    (hin : ∀ (w : (⟨s.rank, window⟩ : Shape).Idx) (a : Fin s.rank),
      lo a ≤ (j (a.cast h.1.symm)).val * strides a + (w a).val
        ∧ (j (a.cast h.1.symm)).val * strides a + (w a).val - lo a < s.size a) :
    Host.reduceWindow max window strides lo hi x init h hu j
      = Finset.univ.sup fun w : (⟨s.rank, window⟩ : Shape).Idx =>
          x (fun a => ⟨(j (a.cast h.1.symm)).val * strides a + (w a).val - lo a, (hin w a).2⟩) := by
  unfold Host.reduceWindow
  dsimp only
  rw [hinit]
  have hstep : (fun (r : α) (n : Fin (⟨s.rank, window⟩ : Shape).numel) =>
        max r (if hin' : ∀ a, lo a ≤ (j (a.cast h.1.symm)).val * strides a + ((Shape.rowMajor (⟨s.rank, window⟩ : Shape)).symm n a).val
            ∧ (j (a.cast h.1.symm)).val * strides a + ((Shape.rowMajor (⟨s.rank, window⟩ : Shape)).symm n a).val - lo a < s.size a
          then x (fun a => ⟨(j (a.cast h.1.symm)).val * strides a + ((Shape.rowMajor (⟨s.rank, window⟩ : Shape)).symm n a).val - lo a, (hin' a).2⟩)
          else ⊥))
      = fun r n => max r ((fun w : (⟨s.rank, window⟩ : Shape).Idx =>
          x (fun a => ⟨(j (a.cast h.1.symm)).val * strides a + (w a).val - lo a, (hin w a).2⟩))
            ((Shape.rowMajor (⟨s.rank, window⟩ : Shape)).symm n)) := by
    funext r n
    rw [dif_pos (hin _)]
  refine (congrArg (fun f : α → Fin (⟨s.rank, window⟩ : Shape).numel → α => List.foldl f (⊥ : α) (List.finRange _)) hstep).trans ?_
  rw [foldl_max_finRange]
  exact sup_univ_comp_equiv (α := α) (Shape.rowMajor (⟨s.rank, window⟩ : Shape)).symm
    (fun w : (⟨s.rank, window⟩ : Shape).Idx =>
      x (fun a => ⟨(j (a.cast h.1.symm)).val * strides a + (w a).val - lo a, (hin w a).2⟩))

end Order

/-! ## The sliding maximum over the last two axes -/

section Slide
variable {α : Type} [LinearOrder α] [OrderBot α]

theorem idx3_lt0 {n0 n1 n2 : Nat} (o : (⟨3, ![n0, n1, n2]⟩ : Shape).Idx) : (o 0).val < n0 := (o 0).isLt
theorem idx3_lt1 {n0 n1 n2 : Nat} (o : (⟨3, ![n0, n1, n2]⟩ : Shape).Idx) : (o 1).val < n1 := (o 1).isLt
theorem idx3_lt2 {n0 n1 n2 : Nat} (o : (⟨3, ![n0, n1, n2]⟩ : Shape).Idx) : (o 2).val < n2 := (o 2).isLt

/-- Entry `(c, i, j)` of the maximum over `k × k` windows, stride one, of a rank-3 array's last two axes: the
    supremum of row `c` over rows `i ‥ i + k − 1` and columns `j ‥ j + k − 1`. The result has `P × Q` windows per row
    of the first axis; `hP`, `hQ` say that the last window still lies inside the array. -/
def slideMax {N H W : Nat} (k P Q : Nat) (hP : P + k ≤ H + 1) (hQ : Q + k ≤ W + 1)
    (X : (⟨3, ![N, H, W]⟩ : Shape).Idx → α) : (⟨3, ![N, P, Q]⟩ : Shape).Idx → α :=
  fun o => Finset.univ.sup fun a : Fin k => Finset.univ.sup fun b : Fin k =>
    X (ix3 (⟨(o 0).val, idx3_lt0 o⟩ : Fin N)
      (⟨(o 1).val + a.val, by have := idx3_lt1 o; have := a.isLt; omega⟩ : Fin H)
      (⟨(o 2).val + b.val, by have := idx3_lt2 o; have := b.isLt; omega⟩ : Fin W))

/-- A supremum over the index set of the shape `[1, B, C]` is the double supremum over its last two coordinates. -/
theorem sup_idx3_one {B C : Nat} (f : (⟨3, ![1, B, C]⟩ : Shape).Idx → α) :
    Finset.univ.sup f = Finset.univ.sup fun a : Fin B => Finset.univ.sup fun b : Fin C => f (ix3 (0 : Fin 1) a b) := by
  apply le_antisymm
  · refine Finset.sup_le fun w _ => ?_
    have hw : w = ix3 (0 : Fin 1) (w 1) (w 2) := by
      rw [eq_ix3 w]
      have h0 : w 0 = (0 : Fin 1) := Fin.ext (by have := idx3_lt0 w; simp; omega)
      funext d
      match d with
      | ⟨0, _⟩ => exact h0
      | ⟨1, _⟩ => rfl
      | ⟨2, _⟩ => rfl
    rw [hw]
    exact Finset.le_sup_of_le (Finset.mem_univ (w 1))
      (Finset.le_sup (f := fun b : Fin C => f (ix3 (0 : Fin 1) (w 1) b)) (Finset.mem_univ (w 2)))
  · refine Finset.sup_le fun a _ => Finset.sup_le fun b _ => ?_
    exact Finset.le_sup (f := f) (Finset.mem_univ (ix3 (0 : Fin 1) a b))

end Slide

/-- The f32 pattern of `-∞` is the bottom of the extended reals. -/
theorem ofBits_neg_inf_f32 : Ideal.ofBits .f32 0xFF800000#32 = (⊥ : EReal) := by
  simp [Ideal.ofBits, Ideal.ieee]

/-- A one-axis maximum of a rank-3 array over its LAST axis, from `-∞`, read at `(c, a)`: the supremum over the
    last coordinate. -/
theorem max_last3_apply {A B C : Nat} (src : FVec Ideal (⟨3, ![A, B, C]⟩ : Shape) .f32)
    (h2 : (⟨3, ![A, B, C]⟩ : Shape).Reduces [2] ⟨2, ![A, B]⟩) (hφ : FKind.Formats .f32)
    (hacc : (0xFF800000#32 : BitVec 32) = FKind.maximumf.neutral .f32 hφ) (c : Fin A) (a : Fin B) :
    multiReduction .maximumf [2] ⟨2, ![A, B]⟩ src 0xFF800000#32 h2 hφ hacc (ix2 c a)
      = Finset.univ.sup fun b : Fin C => src (ix3 c a b) := by
  rw [Ideal.multiReduction_maximumf_single]
  show Finset.univ.fold max (Ideal.ofBits .f32 0xFF800000#32) (fun b : Fin C => src (h2.lift (ix2 c a) b)) = _
  rw [ofBits_neg_inf_f32]
  have e : ∀ b : Fin C, h2.lift (ix2 c a) b = ix3 c a b := fun b => by
    funext d
    match d with
    | ⟨0, _⟩ => exact Fin.ext rfl
    | ⟨1, _⟩ => exact Fin.ext rfl
    | ⟨2, _⟩ => exact Fin.ext rfl
  simp only [e]
  rfl

/-- A one-axis maximum of a rank-2 array over its LAST axis, from `-∞`, read at `c`: the supremum over the last
    coordinate. -/
theorem max_last2_apply {A B : Nat} (src : FVec Ideal (⟨2, ![A, B]⟩ : Shape) .f32)
    (h1 : (⟨2, ![A, B]⟩ : Shape).Reduces [1] ⟨1, ![A]⟩) (hφ : FKind.Formats .f32)
    (hacc : (0xFF800000#32 : BitVec 32) = FKind.maximumf.neutral .f32 hφ) (c : Fin A) :
    multiReduction .maximumf [1] ⟨1, ![A]⟩ src 0xFF800000#32 h1 hφ hacc (ix1 c)
      = Finset.univ.sup fun a : Fin B => src (ix2 c a) := by
  rw [Ideal.multiReduction_maximumf_single]
  show Finset.univ.fold max (Ideal.ofBits .f32 0xFF800000#32) (fun a : Fin B => src (h1.lift (ix1 c) a)) = _
  rw [ofBits_neg_inf_f32]
  have e : ∀ a : Fin B, h1.lift (ix1 c) a = ix2 c a := fun a => by
    funext d
    match d with
    | ⟨0, _⟩ => exact Fin.ext rfl
    | ⟨1, _⟩ => exact Fin.ext rfl
  simp only [e]
  rfl

/-- **The maximum over the last axis, then over the last axis of what is left**, from `-∞` both times, read at row
    `c`: the supremum of the array's row over both coordinates. -/
theorem max_last_two_apply {A B C : Nat} (src : FVec Ideal (⟨3, ![A, B, C]⟩ : Shape) .f32)
    (h2 : (⟨3, ![A, B, C]⟩ : Shape).Reduces [2] ⟨2, ![A, B]⟩) (h1 : (⟨2, ![A, B]⟩ : Shape).Reduces [1] ⟨1, ![A]⟩)
    (hφ2 hφ1 : FKind.Formats .f32)
    (hacc2 : (0xFF800000#32 : BitVec 32) = FKind.maximumf.neutral .f32 hφ2)
    (hacc1 : (0xFF800000#32 : BitVec 32) = FKind.maximumf.neutral .f32 hφ1) (c : Fin A) :
    multiReduction .maximumf [1] ⟨1, ![A]⟩
        (multiReduction .maximumf [2] ⟨2, ![A, B]⟩ src 0xFF800000#32 h2 hφ2 hacc2) 0xFF800000#32 h1 hφ1 hacc1 (ix1 c)
      = Finset.univ.sup fun a : Fin B => Finset.univ.sup fun b : Fin C => src (ix3 c a b) := by
  rw [max_last2_apply]
  exact congrArg (Finset.univ.sup) (funext fun a => max_last3_apply src h2 hφ2 hacc2 c a)

end Idealize.ShloMosaic.WindowMax

end
-- ==== Proof.Region2.lean ====
/-
  The third kernel region: the row-wise log-softmax, block by block.

  The input z has 50000 rows and 40 columns, and so has the result. Grid point t (t = 0, …, 4) reads rows
  10000·t … 10000·t + 9999 of z as one block and writes the same rows of the result. For a row f = (f 0, …, f 39) put
  M = sup_b f b; the row's log-softmax at column q is  (f q − M) − log (Σ_b exp (f b − M))  (`rowLSM`).

  * Block side (`payload_entry`): the body's arithmetic at entry (p, q) of a block is `rowLSM` of the block's row p
    at q. The maximum over the columns from −∞ is the row's supremum; it is kept as a one-column array and repeated
    along the row (`rowMaxSpread_entry`). The sum over the columns of the exponentials is the row's plain sum; its
    logarithm is kept and repeated the same way (`logSumSpread_entry`).
  * Array side (`spec_entry`): the specification's `logSoftmax z` at (r, q) is `rowLSM` of row r of z at q. The
    reduction by max from −∞ over the second axis is the row's supremum (`hostMax_last2`, and max(−∞, a) = a); the
    reduction by + from 0 is the row's sum (`hostSum_last2`, and 0 + a = a); the broadcasts [50000] → [50000, 1] →
    [50000, 40] read entry r at every (r, q).
  * Entry (p, q) of grid point t's block is entry (10000·t + p, q) of the array, for the input window
    (`iblk_entry`) and for the result window alike, so what point t writes back is its block of `logSoftmax z`
    (`flushed_eq`). Row r lies in the block of point r / 10000 (`covered`). Hence the result array ends as
    `logSoftmax z` (`array_eq`).
-/
import proofs.«153174_j81338090651993_1_alg».proof.Proof.Gen.KernelIdeal.Frame
import proofs.«153174_j81338090651993_1_alg».proof.Proof.Spec
import proofs.«153174_j81338090651993_1_alg».proof.Proof.LibColumn
import proofs.«153174_j81338090651993_1_alg».proof.Proof.LibLaneSum
import proofs.«153174_j81338090651993_1_alg».proof.Proof.LibWindowMax
import Idealize.ShloMosaic.Lib.Pipeline.Value
import Idealize.ShloMosaic.Lib.ValueIdx
import Idealize.ShloMosaic.Lib.IdealHost
import Idealize.ShloMosaic.PureOps.Ideal.Laws

noncomputable section

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

namespace Cert.KernelIdeal.Region2

/-- One row's log-softmax: the entry less the row's supremum, less the logarithm of the row's sum of exponentials of
    the entries less the supremum. -/
def rowLSM {B : Nat} (f : Fin B → EReal) (q : Fin B) : EReal :=
  (f q - Finset.univ.sup f) - Ideal.log (∑ b : Fin B, Ideal.exp (f b - Finset.univ.sup f))

/-- The maximum over the second axis from -inf, kept as a one-column array and repeated along each row, at (p, q):
    the supremum of row p. -/
theorem rowMaxSpread_entry {A B : Nat} (v : FVec Ideal ⟨2, ![A, B]⟩ .f32)
    (h1 : (⟨2, ![A, B]⟩ : Shape).Reduces [1] ⟨1, ![A]⟩) (hφ : FKind.Formats .f32)
    (hacc : (0xFF800000#32 : BitVec 32) = FKind.maximumf.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    broadcastTo ⟨2, ![A, B]⟩ (shapeCast ⟨2, ![A, 1]⟩ (multiReduction .maximumf [1] ⟨1, ![A]⟩ v 0xFF800000#32 h1 hφ hacc) hc) hb (ix2 p q)
      = Finset.univ.sup fun b : Fin B => v (ix2 p b) :=
  (Cert.Proof.Column.broadcastTo_a1_ab_apply _ hb p q).trans
    ((Cert.Proof.Column.shapeCast_a_a1_apply _ hc p 0).trans (WindowMax.max_last2_apply v h1 hφ hacc p))

/-- The logarithm of the sum over the second axis, kept as a one-column array and repeated along each row, at (p, q):
    the logarithm of row p's sum. -/
theorem logSumSpread_entry {A B : Nat} (e : FVec Ideal ⟨2, ![A, B]⟩ .f32)
    (h1 : (⟨2, ![A, B]⟩ : Shape).Reduces [1] ⟨1, ![A]⟩) (hφ : FKind.Formats .f32)
    (hacc : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    broadcastTo ⟨2, ![A, B]⟩ (log (shapeCast ⟨2, ![A, 1]⟩ (multiReduction .add [1] ⟨1, ![A]⟩ e 0x00000000#32 h1 hφ hacc) hc)) hb (ix2 p q)
      = Ideal.log (∑ b : Fin B, e (ix2 p b)) :=
  (Cert.Proof.Column.broadcastTo_a1_ab_apply _ hb p q).trans
    (congrArg Ideal.log ((Cert.Proof.Column.shapeCast_a_a1_apply _ hc p 0).trans (Cert.LibLaneSum.sum_last2 e _ h1 hφ hacc p)))

/-- The kernel's arithmetic at entry (p, q) of a block: the log-softmax of the block's row p, at q. -/
theorem payload_entry (zb : Vec Ideal S10000x40 .f32) (p : Fin 10000) (q : Fin 40) :
    k2_pay1 (F := Ideal) zb (ix2 p q) = rowLSM (fun b : Fin 40 => zb (ix2 p b)) q := by
  unfold k2_pay1 rowLSM
  dsimp only
  rw [shapeCast_self]
  rw [subf_apply, subf_apply]
  refine congrArg₂ (fun a b : EReal => a - b)
    (congrArg (fun a : EReal => zb (ix2 p q) - a) (rowMaxSpread_entry zb _ _ _ _ _ p q)) ?_
  refine (logSumSpread_entry _ _ _ _ _ _ p q).trans ?_
  refine congrArg Ideal.log (Finset.sum_congr rfl fun b _ => ?_)
  exact congrArg (fun a : EReal => Ideal.exp (zb (ix2 p b) - a)) (rowMaxSpread_entry zb _ _ _ _ _ p b)

/-- The reference's reduction by max of a two-axis array over its second axis, from the bottom element, at row a:
    the supremum of the row. -/
theorem hostMax_last2 {A B : Nat} {u : Shape} (x : FVec Ideal ⟨2, ![A, B]⟩ .f32) (init : u.Idx → Ideal .f32)
    (h' : (⟨2, ![A, B]⟩ : Shape).ReducesTo [1] ⟨1, ![A]⟩) (h : (⟨2, ![A, B]⟩ : Shape).Reduces [1] ⟨1, ![A]⟩)
    (hu : 0 < u.numel) (hinit : init (Shape.Idx.first hu) = (⊥ : EReal)) (a : Fin A) :
    Host.reduce FloatOps.maximumf x init h' hu (ix1 a) = Finset.univ.sup fun b : Fin B => x (ix2 a b) := by
  refine (Host.reduce_eq_fold_single FloatOps.maximumf x init h' h hu (ix1 a)).trans ?_
  rw [hinit]
  show Finset.univ.fold max (⊥ : EReal) (fun b : Fin B => x (h.lift (ix1 a) b)) = _
  have e : ∀ b : Fin B, h.lift (ix1 a) b = ix2 a b := fun b => by
    funext d
    match d with
    | ⟨0, _⟩ => exact Fin.ext rfl
    | ⟨1, _⟩ => exact Fin.ext rfl
  simp only [e]
  rfl

/-- The reference's row maximum at (r, q): the supremum of row r. -/
theorem rowMax_entry (z : (⟨Cert.ReferenceIdeal.S50000x40, .f32⟩ : BufTy).Contents (Elt Ideal)) (r : Fin 50000) (q : Fin 40) :
    Cert.Spec.rowMax (F := Ideal) z (ix2 r q) = Finset.univ.sup fun b : Fin 40 => z (ix2 r b) := by
  unfold Cert.Spec.rowMax
  refine (broadcastInDim_apply _ _ _ (ix2 r q) (ix2 r (0 : Fin 1)) fun a => ?_).trans ?_
  · match a with
    | ⟨0, _⟩ => rfl
    | ⟨1, _⟩ => rfl
  refine (broadcastInDim_apply _ _ _ (ix2 r (0 : Fin 1)) (ix1 r) fun a => ?_).trans ?_
  · match a with
    | ⟨0, _⟩ => rfl
  rw [maximumf_apply, broadcastInDim_scalar_apply, constant_apply, WindowMax.ofBits_neg_inf_f32, bot_sup_eq]
  exact hostMax_last2 z _ _ (by decide) _ WindowMax.ofBits_neg_inf_f32 r

/-- The reference's reduction by + of a two-axis array over its second axis, from zero, at row a: the row's sum. -/
theorem hostSum_last2 {A B : Nat} {u : Shape} (x : FVec Ideal ⟨2, ![A, B]⟩ .f32) (init : u.Idx → Ideal .f32)
    (h' : (⟨2, ![A, B]⟩ : Shape).ReducesTo [1] ⟨1, ![A]⟩) (h : (⟨2, ![A, B]⟩ : Shape).Reduces [1] ⟨1, ![A]⟩)
    (hu : 0 < u.numel) (hinit : init (Shape.Idx.first hu) = (0 : EReal)) (a : Fin A) :
    Host.reduceAdd x init h' hu (ix1 a) = ∑ b : Fin B, x (ix2 a b) := by
  refine (Ideal.hostReduceAdd_single h' h x _ (ix1 a)).trans ?_
  rw [hinit, zero_add]
  exact Finset.sum_congr rfl fun k _ => congrArg x (funext fun d => Fin.ext (by
    match d with | ⟨0, _⟩ => rfl | ⟨1, _⟩ => rfl))

/-- The reference's logarithm and exponential at an index are the extended-real functions of the entry. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The reference's log-softmax at (r, q): the log-softmax of row r, at q. -/
theorem spec_entry (z : (⟨Cert.ReferenceIdeal.S50000x40, .f32⟩ : BufTy).Contents (Elt Ideal)) (r : Fin 50000) (q : Fin 40) :
    Cert.Spec.logSoftmax (F := Ideal) z (ix2 r q) = rowLSM (fun b : Fin 40 => z (ix2 r b)) q := by
  unfold Cert.Spec.logSoftmax rowLSM
  rw [subf_apply, subf_apply, rowMax_entry]
  refine congrArg (fun a : EReal => z (ix2 r q) - (Finset.univ.sup fun b : Fin 40 => z (ix2 r b)) - a) ?_
  refine (broadcastInDim_apply _ _ _ (ix2 r q) (ix2 r (0 : Fin 1)) fun a => ?_).trans ?_
  · match a with
    | ⟨0, _⟩ => rfl
    | ⟨1, _⟩ => rfl
  refine (hostLog_apply _ _).trans (congrArg Ideal.log ?_)
  refine (broadcastInDim_apply _ _ _ (ix2 r (0 : Fin 1)) (ix1 r) fun a => ?_).trans ?_
  · match a with
    | ⟨0, _⟩ => rfl
  refine (hostSum_last2 _ _ _ (by decide) _ Ideal.ofBits_zero_f32 r).trans ?_
  refine Finset.sum_congr rfl fun b _ => ?_
  refine (hostExp_apply _ _).trans ?_
  rw [subf_apply]
  exact congrArg (fun a : EReal => Ideal.exp (z (ix2 r b) - a)) (rowMax_entry z r b)

/-- The zero offset pair, as a constant function. -/
theorem hz : (![0, 0] : Fin 2 → Nat) = fun _ => 0 := funext fun a => by fin_cases a <;> rfl

/-- Both windows' block index at grid point t is (t, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

section
variable (V : (c : Dev nD) → (b : Ref sig .tc) → Buf (Elt Ideal) ((c : Thread nD τ).loc b)) (c : Dev nD)

/-- Entry (p, b) of the input window's block at grid point t is entry (10000·t + p, b) of the input array. -/
theorem iblk_entry (t : Fin cfg2.N) (p : Fin 10000) (b : Fin 40) (r : Fin 50000) (hr : r.val = t.val * 10000 + p.val) :
    (iblk2 (F := Ideal) V c 0 t : Vec Ideal S10000x40 .f32) (ix2 p b)
      = (V c main_v63 : S50000x40.Idx → Elt Ideal .f32) (ix2 r b) := by
  obtain ⟨e0, e1, -, -⟩ := idx_facts t
  unfold iblk2
  rw [View.read_apply]
  show V c main_v63 _ = V c main_v63 _
  congr 1
  funext a
  apply Fin.ext
  match a with
  | ⟨0, _⟩ => show win2_0.index t 0 * 10000 + 1 * p.val = r.val; rw [e0, hr]; omega
  | ⟨1, _⟩ => show win2_0.index t 1 * 40 + 1 * b.val = b.val; rw [e1]; omega

/-- What grid point t writes back to the result array is its block of the log-softmax of the input array: both sides
    at entry (p, q) are the log-softmax of one row, row p of the block being row 10000·t + p of the array. -/
theorem flushed_eq (t : Fin cfg2.N) :
    (dat2 (F := Ideal) V c).flushed 1 t
      = ((cfg2.win 1).blk t).view.read (Elt Ideal) (Cert.Spec.logSoftmax (F := Ideal) (V c main_v63)) := by
  show (cfg2.win 1).cut (grid2.coords t) ((dat2 V c).after 1 t) = _
  rw [after2_1]
  unfold out2_1
  rw [View.canon_unit_zero hz]
  simp only [View.ld_unit_zero (S := S10000x40) hz]
  funext j
  obtain ⟨p, q, rfl⟩ : ∃ (p : Fin 10000) (q : Fin 40), j = ix2 p q := ⟨j 0, j 1, eq_ix2 j⟩
  have hlt : t.val * 10000 + p.val < 50000 := by
    have := t.isLt; have hN : cfg2.N = 5 := N_2; have := p.isLt; omega
  obtain ⟨-, -, e0, e1⟩ := idx_facts t
  have hemb : ((cfg2.win 1).blk t).view.emb (ix2 p q) = (ix2 (⟨t.val * 10000 + p.val, hlt⟩ : Fin 50000) q : S50000x40.Idx) := by
    funext a
    apply Fin.ext
    match a with
    | ⟨0, _⟩ => show win2_1.index t 0 * 10000 + 1 * p.val = t.val * 10000 + p.val; rw [e0]; omega
    | ⟨1, _⟩ => show win2_1.index t 1 * 40 + 1 * q.val = q.val; rw [e1]; omega
  rw [View.read_apply]
  show k2_pay1 (F := Ideal) (iblk2 V c 0 t) (ix2 p q)
    = Cert.Spec.logSoftmax (F := Ideal) (V c main_v63) (((cfg2.win 1).blk t).view.emb (ix2 p q))
  rw [hemb]
  refine (payload_entry _ p q).trans ((spec_entry _ _ q).trans ?_).symm
  have hrow : (fun b : Fin 40 => (V c main_v63 : S50000x40.Idx → Elt Ideal .f32) (ix2 (⟨t.val * 10000 + p.val, hlt⟩ : Fin 50000) b))
      = fun b : Fin 40 => (iblk2 (F := Ideal) V c 0 t : Vec Ideal S10000x40 .f32) (ix2 p b) :=
    funext fun b => (iblk_entry V c t p b ⟨t.val * 10000 + p.val, hlt⟩ rfl).symm
  exact congrArg (fun f : Fin 40 → EReal => rowLSM f q) hrow

/-- An index of the result array is in grid point t's block iff each coordinate is in the block's range. -/
theorem mem_blk (t : Fin cfg2.N) (i : S50000x40.Idx) :
    i ∈ ((cfg2.win 1).blk t).view.set ↔ ∀ a : Fin 2, win2_1.index t a * S10000x40.size a ≤ (i a).val
      ∧ (i a).val < win2_1.index t a * S10000x40.size a + S10000x40.size a := by
  show i ∈ ((View.whole main_v64).slice (win2_1.rect t)).set ↔ _
  rw [View.set_slice_whole, Rect.mem_set_unit]
  exact Iff.rfl

/-- Row r of the result array lies in the block of grid point r / 10000. -/
theorem covered (i : S50000x40.Idx) :
    ∃ t : Fin cfg2.N, (cfg2.win 1).flush t = true ∧ i ∈ ((cfg2.win 1).blk t).view.set := by
  have h0 : (i 0).val < 50000 := (i 0).isLt
  have h1 : (i 1).val < 40 := (i 1).isLt
  have hN : cfg2.N = 5 := N_2
  have ht : (i 0).val / 10000 < cfg2.N := by rw [hN]; omega
  refine ⟨⟨(i 0).val / 10000, ht⟩, flush2_1 _, ?_⟩
  rw [mem_blk]
  obtain ⟨-, -, e0, e1⟩ := idx_facts ⟨(i 0).val / 10000, ht⟩
  have e0' : win2_1.index ⟨(i 0).val / 10000, ht⟩ (0 : Fin 2) = (i 0).val / 10000 := e0
  intro a
  match a with
  | ⟨0, _⟩ =>
    show win2_1.index ⟨(i 0).val / 10000, ht⟩ (0 : Fin 2) * 10000 ≤ (i 0).val
      ∧ (i 0).val < win2_1.index ⟨(i 0).val / 10000, ht⟩ (0 : Fin 2) * 10000 + 10000
    rw [e0']; omega
  | ⟨1, _⟩ =>
    show win2_1.index ⟨(i 0).val / 10000, ht⟩ (1 : Fin 2) * 40 ≤ (i 1).val
      ∧ (i 1).val < win2_1.index ⟨(i 0).val / 10000, ht⟩ (1 : Fin 2) * 40 + 40
    rw [e1]; omega

end

/-- After the five grid points the result array holds the log-softmax of the input array, row by row. -/
theorem array_eq (V : (c : Dev nD) → (b : Ref sig .tc) → Buf (Elt Ideal) ((c : Thread nD τ).loc b)) (c : Dev nD) :
    (dat2 (F := Ideal) V c).arrAt 1 cfg2.N = Cert.Spec.logSoftmax (F := Ideal) (V c main_v63) :=
  (dat2 (F := Ideal) V c).arrAt_eq_of_cover 1 _ (fun t _ => flushed_eq V c t) covered

end Cert.KernelIdeal.Region2

end
-- ==== Proof.LibTypedRef.lean ====
/-
  A typed reference is a buffer together with the equation "its type is T". Contents written at the type T are carried
  to the buffer's own type along that equation, and read back along its inverse. The two transports cancel: contents
  moved to the buffer's type and back are unchanged (and the other way round), whatever the equation's proof.
-/
import Idealize.ShloMosaic.Lib.StableHlo

namespace Cert.LibTypedRef

open Idealize.ShloMosaic Idealize.ShloMosaic.StableHlo

variable {sig : RefSig} {Val : EltTy → Type} {T : BufTy}

/-- To the buffer's type and back. -/
theorem ofBuf_toBuf (x : TRef sig T) (v : T.Contents Val) : x.ofBuf (x.toBuf v) = v := by
  obtain ⟨r, h, hd, hu⟩ := x
  subst h
  rfl

/-- From the buffer's type and back. -/
theorem toBuf_ofBuf (x : TRef sig T) (v : x.ref.ty.Contents Val) : x.toBuf (x.ofBuf v) = v := by
  obtain ⟨r, h, hd, hu⟩ := x
  subst h
  rfl

end Cert.LibTypedRef
-- ==== Proof.RefValue.lean ====
/-
  The plain array program read in five stretches. Its operations in order: (A) the edge sources and targets (a row of
  the edge array followed by every node once) and the edge weights dinv(source) dinv(target); (B) x W1, its weighted
  neighbour sum, the bias row and the rectifier: the hidden features; (C) hid W2, its weighted neighbour sum, plus b2;
  (D) the row-wise log-softmax (row maximum; shifted exponentials and their row sums; the logarithm subtracted); (E) the score column through the two-layer head, read as a vector, the logistic
  function written out as 1 / (1 + exp(-s)), and the thresholded mask. Each stretch is read for ANY contents it may
  find, as one of the specification's functions of the buffers it reads; no stretch writes a buffer a later one still
  needs, nor an argument. Composed from the launch contents, the three results are the specification's three functions
  of the arguments.
-/
import proofs.«153174_j81338090651993_1_alg».proof.Proof.RefRun
import proofs.«153174_j81338090651993_1_alg».proof.Proof.HostRead
import proofs.«153174_j81338090651993_1_alg».proof.Proof.LibTypedRef
import Idealize.ShloMosaic.Lib.Pipeline.Frame

set_option maxRecDepth 16384
set_option maxHeartbeats 4000000

noncomputable section

namespace Cert.ReferenceIdeal.RefValue

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-- (A) Edge lists and edge weights. -/
abbrev opsA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf (F := F) .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]
/-- (B) The hidden features. -/
abbrev opsB : List (HloOp τ sig (Elt F)) :=
  [ binary main_arg0 main_arg2 main_v30 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x96 ![0, 1] bcast_S850000x1_S850000x96_0_1 : (⟨S850000x1, .f32⟩ : BufTy).Contents (Elt F) → (⟨S850000x96, .f32⟩ : BufTy).Contents (Elt F)),
    binary main_v37 main_v39 main_v40 (mulf : (⟨S850000x96, .f32⟩ : BufTy).Contents (Elt F) → (⟨S850000x96, .f32⟩ : BufTy).Contents (Elt F) → (⟨S850000x96, .f32⟩ : BufTy).Contents (Elt F)),
    nullary main_cst_8 (constant S_ .f32 0x00000000#32),
    unary main_cst_8 main_v41 (broadcastInDim S50000x96 ![] bcast_S_S50000x96 : (⟨S_, .f32⟩ : BufTy).Contents (Elt F) → (⟨S50000x96, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_arg3 main_v44 (broadcastInDim S1x96 ![1] bcast_S96_S1x96_1 : (⟨S96, .f32⟩ : BufTy).Contents (Elt F) → (⟨S1x96, .f32⟩ : BufTy).Contents (Elt F)),
    unary main_v44 main_v45 (broadcastInDim S50000x96 ![0, 1] bcast_S1x96_S50000x96_0_1 : (⟨S1x96, .f32⟩ : BufTy).Contents (Elt F) → (⟨S50000x96, .f32⟩ : BufTy).Contents (Elt F)),
    binary main_v43 main_v45 main_v46 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x96, .f32⟩) main_call1_v0) (broadcastInDim S50000x96 ![] bcast_S_S50000x96),
    TRef.binary (TRef.of (T := ⟨S50000x96, .f32⟩) main_v46) (TRef.of (T := ⟨S50000x96, .f32⟩) main_call1_v0) (TRef.of (T := ⟨S50000x96, .f32⟩) main_v47) maximumf ]
/-- (C) The second convolution, before the log-softmax. -/
abbrev opsC : List (HloOp τ sig (Elt F)) :=
  [ binary main_v47 main_arg4 main_v48 ((fun l r => Host.dotGeneral dot_S50000x96_S96x40_S50000x40_1_0_0_1_n_n none l r) : (⟨S50000x96, .f32⟩ : BufTy).Contents (Elt F) → (⟨S96x40, .f32⟩ : BufTy).Contents (Elt F) → (⟨S50000x40, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x40 ![0, 1] bcast_S850000x1_S850000x40_0_1 : (⟨S850000x1, .f32⟩ : BufTy).Contents (Elt F) → (⟨S850000x40, .f32⟩ : BufTy).Contents (Elt F)),
    binary main_v55 main_v57 main_v58 (mulf : (⟨S850000x40, .f32⟩ : BufTy).Contents (Elt F) → (⟨S850000x40, .f32⟩ : BufTy).Contents (Elt F) → (⟨S850000x40, .f32⟩ : BufTy).Contents (Elt F)),
    nullary main_cst_11 (constant S_ .f32 0x00000000#32),
    unary main_cst_11 main_v59 (broadcastInDim S50000x40 ![] bcast_S_S50000x40 : (⟨S_, .f32⟩ : BufTy).Contents (Elt F) → (⟨S50000x40, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    unary main_arg5 main_v62 (broadcastInDim S1x40 ![1] bcast_S40_S1x40_1 : (⟨S40, .f32⟩ : BufTy).Contents (Elt F) → (⟨S1x40, .f32⟩ : BufTy).Contents (Elt F)),
    unary main_v62 main_v63 (broadcastInDim S50000x40 ![0, 1] bcast_S1x40_S50000x40_0_1 : (⟨S1x40, .f32⟩ : BufTy).Contents (Elt F) → (⟨S50000x40, .f32⟩ : BufTy).Contents (Elt F)),
    binary main_v61 main_v63 main_v64 (addf : (⟨S50000x40, .f32⟩ : BufTy).Contents (Elt F) → (⟨S50000x40, .f32⟩ : BufTy).Contents (Elt F) → (⟨S50000x40, .f32⟩ : BufTy).Contents (Elt F)) ]
/-- (D) The row-wise log-softmax, in three steps: the row maximum spread back along the rows; -/
abbrev opsD1 : List (HloOp τ sig (Elt F)) :=
  [ TRef.nullary (TRef.of (T := ⟨S_, .f32⟩) main_call2_cst) (constant S_ .f32 0xFF800000#32),
    TRef.binary (TRef.of (T := ⟨S50000x40, .f32⟩) main_v64) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1) ]
/-- the shifted entries and the row sums of their exponentials; -/
abbrev opsD2 : List (HloOp τ sig (Elt F)) :=
  [ TRef.binary (TRef.of (T := ⟨S50000x40, .f32⟩) main_v64) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_) ]
/-- the logarithm of the sums spread back and subtracted. -/
abbrev opsD3 : List (HloOp τ sig (Elt F)) :=
  [ TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v65) subf ]
abbrev opsD : List (HloOp τ sig (Elt F)) := opsD1 ++ (opsD2 ++ opsD3)
/-- (E) The probability and the mask. -/
abbrev opsE : List (HloOp τ sig (Elt F)) :=
  [ binary main_v47 main_arg6 main_v66 ((fun l r => Host.dotGeneral dot_S50000x96_S96x64_S50000x64_1_0_0_1_n_n none l r) : (⟨S50000x96, .f32⟩ : BufTy).Contents (Elt F) → (⟨S96x64, .f32⟩ : BufTy).Contents (Elt F) → (⟨S50000x64, .f32⟩ : BufTy).Contents (Elt F)),
    unary main_arg7 main_v67 (broadcastInDim S1x64 ![1] bcast_S64_S1x64_1 : (⟨S64, .f32⟩ : BufTy).Contents (Elt F) → (⟨S1x64, .f32⟩ : BufTy).Contents (Elt F)),
    unary main_v67 main_v68 (broadcastInDim S50000x64 ![0, 1] bcast_S1x64_S50000x64_0_1 : (⟨S1x64, .f32⟩ : BufTy).Contents (Elt F) → (⟨S50000x64, .f32⟩ : BufTy).Contents (Elt F)),
    binary main_v66 main_v68 main_v69 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v69) (TRef.of (T := ⟨S50000x64, .f32⟩) main_call3_v0) (TRef.of (T := ⟨S50000x64, .f32⟩) main_v70) maximumf,
    binary main_v70 main_arg8 main_v71 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    unary main_arg9 main_v72 (broadcastInDim S1x1 ![1] bcast_S1_S1x1_1 : (⟨S1, .f32⟩ : BufTy).Contents (Elt F) → (⟨S1x1, .f32⟩ : BufTy).Contents (Elt F)),
    unary main_v72 main_v73 (broadcastInDim S50000x1 ![0, 1] bcast_S1x1_S50000x1_0_1 : (⟨S1x1, .f32⟩ : BufTy).Contents (Elt F) → (⟨S50000x1, .f32⟩ : BufTy).Contents (Elt F)),
    binary main_v71 main_v73 main_v74 (addf : (⟨S50000x1, .f32⟩ : BufTy).Contents (Elt F) → (⟨S50000x1, .f32⟩ : BufTy).Contents (Elt F) → (⟨S50000x1, .f32⟩ : BufTy).Contents (Elt F)),
    reshape main_v74 main_v75 rfl shapeCasts_S50000x1_S50000,
    unary main_v75 main_v76 (Host.negf : (⟨S50000, .f32⟩ : BufTy).Contents (Elt F) → (⟨S50000, .f32⟩ : BufTy).Contents (Elt F)),
    unary main_v76 main_v77 (Host.exp : (⟨S50000, .f32⟩ : BufTy).Contents (Elt F) → (⟨S50000, .f32⟩ : BufTy).Contents (Elt F)),
    nullary main_cst_12 (constant S_ .f32 0x3F800000#32),
    unary main_cst_12 main_v78 (broadcastInDim S50000 ![] bcast_S_S50000 : (⟨S_, .f32⟩ : BufTy).Contents (Elt F) → (⟨S50000, .f32⟩ : BufTy).Contents (Elt F)),
    binary main_v78 main_v77 main_v79 (addf : (⟨S50000, .f32⟩ : BufTy).Contents (Elt F) → (⟨S50000, .f32⟩ : BufTy).Contents (Elt F) → (⟨S50000, .f32⟩ : BufTy).Contents (Elt F)),
    nullary main_cst_13 (constant S_ .f32 0x3F800000#32),
    unary main_cst_13 main_v80 (broadcastInDim S50000 ![] bcast_S_S50000 : (⟨S_, .f32⟩ : BufTy).Contents (Elt F) → (⟨S50000, .f32⟩ : BufTy).Contents (Elt F)),
    binary main_v80 main_v79 main_v81 (Host.divf : (⟨S50000, .f32⟩ : BufTy).Contents (Elt F) → (⟨S50000, .f32⟩ : BufTy).Contents (Elt F) → (⟨S50000, .f32⟩ : BufTy).Contents (Elt F)),
    nullary main_cst_14 (constant S_ .f32 0x3F000000#32),
    unary main_cst_14 main_v82 (broadcastInDim S50000 ![] bcast_S_S50000 : (⟨S_, .f32⟩ : BufTy).Contents (Elt F) → (⟨S50000, .f32⟩ : BufTy).Contents (Elt F)),
    binary main_v81 main_v82 main_v83 (cmpf (F := F) .ogt : (⟨S50000, .f32⟩ : BufTy).Contents (Elt F) → (⟨S50000, .f32⟩ : BufTy).Contents (Elt F) → (⟨S50000, .i1⟩ : BufTy).Contents (Elt F)),
    unary main_v83 main_v84 (uitofp (F := F) .f32 : (⟨S50000, .i1⟩ : BufTy).Contents (Elt F) → (⟨S50000, .f32⟩ : BufTy).Contents (Elt F)),
    binary main_v84 main_v81 main_v85 (subf : (⟨S50000, .f32⟩ : BufTy).Contents (Elt F) → (⟨S50000, .f32⟩ : BufTy).Contents (Elt F) → (⟨S50000, .f32⟩ : BufTy).Contents (Elt F)),
    binary main_v81 main_v85 main_v86 (addf : (⟨S50000, .f32⟩ : BufTy).Contents (Elt F) → (⟨S50000, .f32⟩ : BufTy).Contents (Elt F) → (⟨S50000, .f32⟩ : BufTy).Contents (Elt F)) ]

theorem ops_split : (ops : List (HloOp τ sig (Elt F))) = opsA ++ (opsB ++ (opsC ++ (opsD ++ opsE))) := rfl

theorem after_ops (W : Valuation τ sig (Elt F)) :
    StableHlo.after ops W = StableHlo.after opsE (StableHlo.after opsD (StableHlo.after opsC (StableHlo.after opsB (StableHlo.after opsA W)))) := by
  rw [ops_split, StableHlo.after_append, StableHlo.after_append, StableHlo.after_append, StableHlo.after_append]

section Stretches
variable (W : Valuation τ sig (Elt F))

/-! ## (A) -/
theorem a_src : StableHlo.after opsA W (Proc.devRef .tc main_v3) = Cert.Spec.srcIdx (F := F) (W (Proc.devRef .tc main_arg1)) := by after_results_simp <;> rfl
theorem a_dst : StableHlo.after opsA W (Proc.devRef .tc main_v6) = Cert.Spec.dstIdx (F := F) (W (Proc.devRef .tc main_arg1)) := by after_results_simp <;> rfl
theorem a_norm : StableHlo.after opsA W (Proc.devRef .tc main_v29) = Cert.Spec.norm (F := F) (W (Proc.devRef .tc main_arg1)) := by after_results_simp <;> rfl
theorem a_keep_arg0 : StableHlo.after opsA W (Proc.devRef .tc main_arg0) = W (Proc.devRef .tc main_arg0) := by after_results_simp <;> rfl
theorem a_keep_arg2 : StableHlo.after opsA W (Proc.devRef .tc main_arg2) = W (Proc.devRef .tc main_arg2) := by after_results_simp <;> rfl
theorem a_keep_arg3 : StableHlo.after opsA W (Proc.devRef .tc main_arg3) = W (Proc.devRef .tc main_arg3) := by after_results_simp <;> rfl

/-! ## (B) -/
theorem b_hid : StableHlo.after opsB W (Proc.devRef .tc main_v47)
    = Cert.Spec.hidden (F := F) (Cert.Spec.aggrRows96 (F := F) (Cert.Spec.lin (F := F) (W (Proc.devRef .tc main_arg0)) (W (Proc.devRef .tc main_arg2))) (W (Proc.devRef .tc main_v3)) (W (Proc.devRef .tc main_v6)) (W (Proc.devRef .tc main_v29))) (Cert.Spec.row96 (F := F) (W (Proc.devRef .tc main_arg3))) := by after_results_simp <;> rfl
theorem b_keep_main_v3 : StableHlo.after opsB W (Proc.devRef .tc main_v3) = W (Proc.devRef .tc main_v3) := by after_results_simp <;> rfl
theorem b_keep_main_v6 : StableHlo.after opsB W (Proc.devRef .tc main_v6) = W (Proc.devRef .tc main_v6) := by after_results_simp <;> rfl
theorem b_keep_main_v29 : StableHlo.after opsB W (Proc.devRef .tc main_v29) = W (Proc.devRef .tc main_v29) := by after_results_simp <;> rfl
theorem ab_keep_arg4 : StableHlo.after opsB (StableHlo.after opsA W) (Proc.devRef .tc main_arg4) = W (Proc.devRef .tc main_arg4) := by after_results_simp <;> rfl
theorem ab_keep_arg5 : StableHlo.after opsB (StableHlo.after opsA W) (Proc.devRef .tc main_arg5) = W (Proc.devRef .tc main_arg5) := by after_results_simp <;> rfl

/-! ## (C) -/
theorem c_z : StableHlo.after opsC W (Proc.devRef .tc main_v64)
    = Cert.Spec.addBias40 (F := F) (Cert.Spec.aggrRows40 (F := F) (Cert.Spec.proj40 (F := F) (W (Proc.devRef .tc main_v47)) (W (Proc.devRef .tc main_arg4))) (W (Proc.devRef .tc main_v3)) (W (Proc.devRef .tc main_v6)) (W (Proc.devRef .tc main_v29))) (W (Proc.devRef .tc main_arg5)) := by after_results_simp <;> rfl
theorem cd_keep_hid : StableHlo.after opsD (StableHlo.after opsC W) (Proc.devRef .tc main_v47) = W (Proc.devRef .tc main_v47) := by after_results_simp <;> rfl
theorem abcd_keep_arg6 : StableHlo.after opsD (StableHlo.after opsC (StableHlo.after opsB (StableHlo.after opsA W))) (Proc.devRef .tc main_arg6) = W (Proc.devRef .tc main_arg6) := by after_results_simp <;> rfl
theorem abcd_keep_arg7 : StableHlo.after opsD (StableHlo.after opsC (StableHlo.after opsB (StableHlo.after opsA W))) (Proc.devRef .tc main_arg7) = W (Proc.devRef .tc main_arg7) := by after_results_simp <;> rfl
theorem abcd_keep_arg8 : StableHlo.after opsD (StableHlo.after opsC (StableHlo.after opsB (StableHlo.after opsA W))) (Proc.devRef .tc main_arg8) = W (Proc.devRef .tc main_arg8) := by after_results_simp <;> rfl
theorem abcd_keep_arg9 : StableHlo.after opsD (StableHlo.after opsC (StableHlo.after opsB (StableHlo.after opsA W))) (Proc.devRef .tc main_arg9) = W (Proc.devRef .tc main_arg9) := by after_results_simp <;> rfl

/-! ## (D) -/
theorem d1_max : StableHlo.after opsD1 W (Proc.devRef .tc main_call2_v4) = Cert.Spec.rowMax (F := F) (W (Proc.devRef .tc main_v64)) := by
  after_results_simp
  simp only [Cert.LibTypedRef.ofBuf_toBuf]
  rfl
theorem d1_keep : StableHlo.after opsD1 W (Proc.devRef .tc main_v64) = W (Proc.devRef .tc main_v64) := by after_results_simp <;> rfl
theorem d2_shift : StableHlo.after opsD2 W (Proc.devRef .tc main_call2_v5) = subf (W (Proc.devRef .tc main_v64)) (W (Proc.devRef .tc main_call2_v4)) := by after_results_simp <;> rfl
theorem d2_sum : StableHlo.after opsD2 W (Proc.devRef .tc main_call2_v7)
    = Host.reduceAdd (Host.exp (subf (W (Proc.devRef .tc main_v64)) (W (Proc.devRef .tc main_call2_v4)))) (constant (F := F) S_ .f32 0x00000000#32) reducesTo_S50000x40_S50000_d1 h_S_ := by after_results_simp <;> rfl
theorem d3_out : StableHlo.after opsD3 W (Proc.devRef .tc main_v65)
    = subf (W (Proc.devRef .tc main_call2_v5)) (broadcastInDim S50000x40 ![0, 1] bcast_S50000x1_S50000x40_0_1 (Host.log (broadcastInDim S50000x1 ![0] bcast_S50000_S50000x1_0 (W (Proc.devRef .tc main_call2_v7))))) := by after_results_simp <;> rfl
theorem d_out : StableHlo.after opsD W (Proc.devRef .tc main_v65) = Cert.Spec.logSoftmax (F := F) (W (Proc.devRef .tc main_v64)) := by
  show StableHlo.after (opsD1 ++ (opsD2 ++ opsD3)) W (Proc.devRef .tc main_v65) = _
  rw [StableHlo.after_append, StableHlo.after_append, d3_out (StableHlo.after opsD2 (StableHlo.after opsD1 W)), d2_shift (StableHlo.after opsD1 W), d2_sum (StableHlo.after opsD1 W), d1_max W, d1_keep W]
  rfl

/-! ## (E) -/
theorem e_prob : StableHlo.after opsE W (Proc.devRef .tc main_v81)
    = Cert.Spec.probVec (F := F) (Cert.Spec.scoreCol (F := F) (W (Proc.devRef .tc main_v47)) (W (Proc.devRef .tc main_arg6)) (Cert.Spec.row64 (F := F) (W (Proc.devRef .tc main_arg7))) (W (Proc.devRef .tc main_arg8)) (Cert.Spec.row1 (F := F) (W (Proc.devRef .tc main_arg9)))) := by after_results_simp <;> rfl
theorem e_mask : StableHlo.after opsE W (Proc.devRef .tc main_v86)
    = Cert.Spec.maskVec (F := F) (Cert.Spec.probVec (F := F) (Cert.Spec.scoreCol (F := F) (W (Proc.devRef .tc main_v47)) (W (Proc.devRef .tc main_arg6)) (Cert.Spec.row64 (F := F) (W (Proc.devRef .tc main_arg7))) (W (Proc.devRef .tc main_arg8)) (Cert.Spec.row1 (F := F) (W (Proc.devRef .tc main_arg9))))) := by after_results_simp <;> rfl
theorem e_keep_out : StableHlo.after opsE W (Proc.devRef .tc main_v65) = W (Proc.devRef .tc main_v65) := by after_results_simp <;> rfl

/-! ## No operation writes an argument -/
theorem keep_arg0 : StableHlo.after ops W (Proc.devRef .tc main_arg0) = W (Proc.devRef .tc main_arg0) := by after_results_simp <;> rfl
theorem keep_arg1 : StableHlo.after ops W (Proc.devRef .tc main_arg1) = W (Proc.devRef .tc main_arg1) := by after_results_simp <;> rfl
theorem keep_arg2 : StableHlo.after ops W (Proc.devRef .tc main_arg2) = W (Proc.devRef .tc main_arg2) := by after_results_simp <;> rfl
theorem keep_arg3 : StableHlo.after ops W (Proc.devRef .tc main_arg3) = W (Proc.devRef .tc main_arg3) := by after_results_simp <;> rfl
theorem keep_arg4 : StableHlo.after ops W (Proc.devRef .tc main_arg4) = W (Proc.devRef .tc main_arg4) := by after_results_simp <;> rfl
theorem keep_arg5 : StableHlo.after ops W (Proc.devRef .tc main_arg5) = W (Proc.devRef .tc main_arg5) := by after_results_simp <;> rfl
theorem keep_arg6 : StableHlo.after ops W (Proc.devRef .tc main_arg6) = W (Proc.devRef .tc main_arg6) := by after_results_simp <;> rfl
theorem keep_arg7 : StableHlo.after ops W (Proc.devRef .tc main_arg7) = W (Proc.devRef .tc main_arg7) := by after_results_simp <;> rfl
theorem keep_arg8 : StableHlo.after ops W (Proc.devRef .tc main_arg8) = W (Proc.devRef .tc main_arg8) := by after_results_simp <;> rfl
theorem keep_arg9 : StableHlo.after ops W (Proc.devRef .tc main_arg9) = W (Proc.devRef .tc main_arg9) := by after_results_simp <;> rfl

/-! ## The three results -/

/-- The hidden features after (A) and (B), from the contents found. -/
theorem hid_eq : StableHlo.after opsB (StableHlo.after opsA W) (Proc.devRef .tc main_v47)
    = Cert.Spec.hid (F := F) (W (Proc.devRef .tc main_arg0)) (W (Proc.devRef .tc main_arg1)) (W (Proc.devRef .tc main_arg2)) (W (Proc.devRef .tc main_arg3)) := by
  rw [b_hid (StableHlo.after opsA W), a_src W, a_dst W, a_norm W, a_keep_arg0 W, a_keep_arg2 W, a_keep_arg3 W]
  rfl

theorem logits_eq : StableHlo.after ops W (Proc.devRef .tc main_v65)
    = Cert.Spec.logits (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [after_ops W, e_keep_out (StableHlo.after opsD (StableHlo.after opsC (StableHlo.after opsB (StableHlo.after opsA W)))), d_out (StableHlo.after opsC (StableHlo.after opsB (StableHlo.after opsA W))), c_z (StableHlo.after opsB (StableHlo.after opsA W)), hid_eq W,
    b_keep_main_v3 (StableHlo.after opsA W), b_keep_main_v6 (StableHlo.after opsA W), b_keep_main_v29 (StableHlo.after opsA W), a_src W, a_dst W, a_norm W,
    ab_keep_arg4 W, ab_keep_arg5 W]
  rfl

theorem prob_eq : StableHlo.after ops W (Proc.devRef .tc main_v81)
    = Cert.Spec.prob (F := F) (W (Proc.devRef .tc main_arg0)) (W (Proc.devRef .tc main_arg1)) (W (Proc.devRef .tc main_arg2)) (W (Proc.devRef .tc main_arg3)) (W (Proc.devRef .tc main_arg6)) (W (Proc.devRef .tc main_arg7)) (W (Proc.devRef .tc main_arg8)) (W (Proc.devRef .tc main_arg9)) := by
  rw [after_ops W, e_prob (StableHlo.after opsD (StableHlo.after opsC (StableHlo.after opsB (StableHlo.after opsA W)))), cd_keep_hid (StableHlo.after opsB (StableHlo.after opsA W)), hid_eq W,
    abcd_keep_arg6 W, abcd_keep_arg7 W, abcd_keep_arg8 W, abcd_keep_arg9 W]
  rfl

theorem mask_eq : StableHlo.after ops W (Proc.devRef .tc main_v86)
    = Cert.Spec.maskVec (F := F) (Cert.Spec.prob (F := F) (W (Proc.devRef .tc main_arg0)) (W (Proc.devRef .tc main_arg1)) (W (Proc.devRef .tc main_arg2)) (W (Proc.devRef .tc main_arg3)) (W (Proc.devRef .tc main_arg6)) (W (Proc.devRef .tc main_arg7)) (W (Proc.devRef .tc main_arg8)) (W (Proc.devRef .tc main_arg9))) := by
  rw [after_ops W, e_mask (StableHlo.after opsD (StableHlo.after opsC (StableHlo.after opsB (StableHlo.after opsA W)))), cd_keep_hid (StableHlo.after opsB (StableHlo.after opsA W)), hid_eq W,
    abcd_keep_arg6 W, abcd_keep_arg7 W, abcd_keep_arg8 W, abcd_keep_arg9 W]
  rfl

end Stretches

/-! ## The run -/

/-- Every weakly fair execution of the plain array program ends, nothing faulting, with its three results at the
    specification's functions of the argument arrays as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = Cert.Spec.logits (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v81) = Cert.Spec.prob (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v86) = Cert.Spec.maskVec (F := F) (Cert.Spec.prob (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v65).trans (logits_eq (launchContents m c)),
     (h c main_v81).trans (prob_eq (launchContents m c)),
     (h c main_v86).trans (mask_eq (launchContents m c)),
     (h c main_arg0).trans (keep_arg0 (launchContents m c)),
     (h c main_arg1).trans (keep_arg1 (launchContents m c)),
     (h c main_arg2).trans (keep_arg2 (launchContents m c)),
     (h c main_arg3).trans (keep_arg3 (launchContents m c)),
     (h c main_arg4).trans (keep_arg4 (launchContents m c)),
     (h c main_arg5).trans (keep_arg5 (launchContents m c)),
     (h c main_arg6).trans (keep_arg6 (launchContents m c)),
     (h c main_arg7).trans (keep_arg7 (launchContents m c)),
     (h c main_arg8).trans (keep_arg8 (launchContents m c)),
     (h c main_arg9).trans (keep_arg9 (launchContents m c))⟩)
    (run_fold m ρ)

end Cert.ReferenceIdeal.RefValue

end
-- ==== Proof.lean ====
/-
  A two-layer graph convolution with a mask head, as three matrix-unit kernels among array operations, against the
  same network written as plain array operations.

  Both programs compute, from node features x [50000, 128], an edge list [2, 800000] and the weights:
    hid    = max(Agg(x W1) + b1, 0)                       (Agg: the weighted sum over each node's incoming edges,
    logits = logSoftmax(Agg(hid W2) + b2)                   self-loops included, weight dinv(source) dinv(target))
    prob   = 1 / (1 + exp(-(max(hid Wm1 + bm1, 0) Wm2 + bm2)))
    mask   = prob + ([prob > 1/2] - prob).
  The edge lists, the weights and both neighbour sums are the SAME array operations in both programs, on the same
  buffers. The kernel program differs in three places, each a function of whole rows: x W1, the head (hid W2, prob and
  mask from the aggregated features) and the log-softmax run on blocks of 10000 rows on the matrix unit. Over the
  extended reals a block's row is computed exactly as the array's row is: a product accumulated from zero is the same
  finite sum, narrowing to bf16 on the way in is the identity, the logistic operation is 1 / (1 + exp(-s)) by
  definition, a maximum started from -inf is the maximum, a 0/1 integer reads as the same 0/1 float signed or unsigned,
  and a bias vector reshaped to a row is the vector broadcast to a row. So the blocks tile the specification's arrays
  (Region0, Region1Proj, Region1Prob, Region2), the stretches of array operations between launches apply the same
  functions on both sides (HostRead, KernelChain for the kernel program; RefValue for the plain one), and both programs
  end with the specification's three functions of the arguments (Spec). No law needing finite inputs is used.

  The kernel programs' frames are the generated ones; the plain program's frame is its run with the results dropped; the
  idealization rewrote nothing, so preserves is trivial.
-/
import proofs.«153174_j81338090651993_1_alg».proof.Defs
import proofs.«153174_j81338090651993_1_alg».proof.Proof.Gen.Kernel
import proofs.«153174_j81338090651993_1_alg».proof.Proof.Gen.Kernel.Frame
import proofs.«153174_j81338090651993_1_alg».proof.Proof.Gen.KernelIdeal
import proofs.«153174_j81338090651993_1_alg».proof.Proof.Gen.KernelIdeal.Frame
import proofs.«153174_j81338090651993_1_alg».proof.Proof.Gen.ReferenceIdeal
import proofs.«153174_j81338090651993_1_alg».proof.Proof.Gen.Pre_finite_inputs
import proofs.«153174_j81338090651993_1_alg».proof.Proof.KernelRun
import proofs.«153174_j81338090651993_1_alg».proof.Proof.KernelChain
import proofs.«153174_j81338090651993_1_alg».proof.Proof.Region0
import proofs.«153174_j81338090651993_1_alg».proof.Proof.Region1Proj
import proofs.«153174_j81338090651993_1_alg».proof.Proof.Region1Prob
import proofs.«153174_j81338090651993_1_alg».proof.Proof.Region2
import proofs.«153174_j81338090651993_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The plain array program's frame: its run, the three results dropped. -/
theorem frame_ri : Cert.frame_ReferenceIdeal := fun m ρ _ =>
  (θ_run Cert.ReferenceIdeal.defs _ _).mono (fun _ h c => (h c).2.2.2) (Cert.ReferenceIdeal.RefValue.run (F := Ideal) m ρ)

/-- Both programs end with the specification's logits, probability and mask of the same arguments. -/
theorem algebraic : Cert.algebraic_KernelIdeal_ReferenceIdeal := by
  intro m ρ m' ρ' _ hagree
  refine ⟨fun c => Cert.Spec.logits (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.prob (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Spec.maskVec (F := Ideal) (Cert.Spec.prob (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))), ?_, ?_⟩
  · refine (θ_run Cert.KernelIdeal.defs _ _).mono (fun r h c => ?_) (Cert.KernelIdeal.RunR.run_results (F := Ideal) m ρ)
    obtain ⟨h64, h65, h66, hargs⟩ := h c
    exact ⟨h64.trans (Cert.KernelIdeal.Chain.result_logits m ρ c Cert.KernelIdeal.Region0.array_eq Cert.KernelIdeal.Region1Proj.array_eq Cert.KernelIdeal.Region1Prob.prob_eq Cert.KernelIdeal.Region1Prob.mask_eq Cert.KernelIdeal.Region2.array_eq),
      h65.trans (Cert.KernelIdeal.Chain.result_prob m ρ c Cert.KernelIdeal.Region0.array_eq Cert.KernelIdeal.Region1Proj.array_eq Cert.KernelIdeal.Region1Prob.prob_eq Cert.KernelIdeal.Region1Prob.mask_eq Cert.KernelIdeal.Region2.array_eq),
      h66.trans (Cert.KernelIdeal.Chain.result_mask m ρ c Cert.KernelIdeal.Region0.array_eq Cert.KernelIdeal.Region1Proj.array_eq Cert.KernelIdeal.Region1Prob.prob_eq Cert.KernelIdeal.Region1Prob.mask_eq Cert.KernelIdeal.Region2.array_eq),
      hargs⟩
  · refine (θ_run Cert.ReferenceIdeal.defs _ _).mono (fun r h c => ?_) (Cert.ReferenceIdeal.RefValue.run (F := Ideal) m' ρ')
    obtain ⟨e0, e1, e2, e3, e4, e5, e6, e7, e8, e9⟩ := hagree c
    obtain ⟨h0, h1, h2, hargs⟩ := h c
    refine ⟨h0.trans ?_, h1.trans ?_, h2.trans ?_, hargs⟩
    · rw [e0, e1, e2, e3, e4, e5]
    · rw [e0, e1, e2, e3, e6, e7, e8, e9]
    · rw [e0, e1, e2, e3, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
